-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S524288 : Shape := ⟨1, ![524288]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S524288 : S_.BroadcastsInDim S524288 (![] : Fin 0 → Fin S524288.rank)
  reducesTo_S524288_S_d0 : S524288.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S524288 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S524288 : Shape := ⟨1, ![524288]⟩
abbrev S4096 : Shape := ⟨1, ![4096]⟩
abbrev S4096x2048 : Shape := ⟨2, ![4096, 2048]⟩
abbrev S4096x128 : Shape := ⟨2, ![4096, 128]⟩
abbrev S4096x4096 : Shape := ⟨2, ![4096, 4096]⟩
abbrev S256x2048 : Shape := ⟨2, ![256, 2048]⟩
abbrev S256x128 : Shape := ⟨2, ![256, 128]⟩
abbrev S256x4096 : Shape := ⟨2, ![256, 4096]⟩
abbrev S128x2048 : Shape := ⟨2, ![128, 2048]⟩
abbrev S256x2048x1 : Shape := ⟨3, ![256, 2048, 1]⟩
abbrev S256x2048x2 : Shape := ⟨3, ![256, 2048, 2]⟩
abbrev S8192x4096 : Shape := ⟨2, ![8192, 4096]⟩
abbrev S1x4096 : Shape := ⟨2, ![1, 4096]⟩
abbrev S1024x512 : Shape := ⟨2, ![1024, 512]⟩
abbrev S4096x512 : Shape := ⟨2, ![4096, 512]⟩
abbrev S1024x4096 : Shape := ⟨2, ![1024, 4096]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S524288, .f32⟩
  | .hbm, ⟨3, _⟩ => ⟨S4096, .f32⟩
  | .hbm, ⟨4, _⟩ => ⟨S4096x2048, .i32⟩
  | .hbm, ⟨5, _⟩ => ⟨S4096x128, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S256x2048, .i32⟩
  | .local _ .vmem, ⟨1, _⟩ => ⟨S256x2048, .i32⟩
  | .local _ .vmem, ⟨2, _⟩ => ⟨S256x128, .f32⟩
  | .local _ .vmem, ⟨3, _⟩ => ⟨S256x128, .f32⟩
  | .local _ .vmem, ⟨4, _⟩ => ⟨S256x4096, .bf16⟩
  | .local _ .vmem, ⟨5, _⟩ => ⟨S256x4096, .bf16⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | .local _ .vmem, ⟨9, _⟩ => ⟨S4096x512, .bf16⟩
  | .local _ .vmem, ⟨10, _⟩ => ⟨S1x4096, .f32⟩
  | .local _ .vmem, ⟨11, _⟩ => ⟨S1024x4096, .f32⟩
  | .local _ .vmem, ⟨12, _⟩ => ⟨S1024x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8388608_S4096x2048 : S8388608.ShapeCasts S4096x2048
  shapeCasts_S524288_S4096x128 : S524288.ShapeCasts S4096x128
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S128x2048_d0_w32 : S128x2048.Iotas .tc 32 [0]
  iota_S128x2048_d1_w32 : S128x2048.Iotas .tc 32 [1]
  natLt_1_32 : 1 < 32
  shapeCasts_S256x2048_S256x2048x1 : S256x2048.ShapeCasts S256x2048x1
  concatenates_S256x2048x1_S256x2048x1_S256x2048x2_d2 : Shape.Concatenates [S256x2048x1, S256x2048x1] S256x2048x2 2
  shapeCasts_S256x2048x2_S256x4096 : S256x2048x2.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S8192x4096_S4x2048x4096 : S8192x4096.ShapeCasts S4x2048x4096
  dot_S256x128_S128x2048_S256x2048_1_0_0_1_n_n_wf : DotDims.WF S256x128 S128x2048 S256x2048 [1] [0] [0] [1] [] []
  dot_S1024x512_S4096x512_S1024x4096_1_1_0_0_n_n_wf : DotDims.WF S1024x512 S4096x512 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S8192x4096.size a
  hwx1_3 : ∀ i : grid1.Coords, EltTy.bits .f32 = 32 ∨ (Rect.block (s := S8192x4096) S1024x4096.size (cc1_transform_3 i) (hinb1_3 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S1024x512_S4096x512_S1024x4096_1_1_0_0_n_n : DotDims S1024x512 S4096x512 S1024x4096 where
  lhsContracting := [1]
  rhsContracting := [1]
  lhsNonContracting := [0]
  rhsNonContracting := [0]
  lhsBatch := []
  rhsBatch := []
  wf := dot_S1024x512_S4096x512_S1024x4096_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S8388608 : Shape := ⟨1, ![8388608]⟩
abbrev S524288 : Shape := ⟨1, ![524288]⟩
abbrev S4096 : Shape := ⟨1, ![4096]⟩
abbrev S8 : Shape := ⟨1, ![8]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S524288x32 : Shape := ⟨2, ![524288, 32]⟩
abbrev S524288x1 : Shape := ⟨2, ![524288, 1]⟩
abbrev S4096x4096 : Shape := ⟨2, ![4096, 4096]⟩
abbrev S1x1x4096 : Shape := ⟨3, ![1, 1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S524288, .f32⟩
  | .hbm, ⟨3, _⟩ => ⟨S4096, .f32⟩
  | .hbm, ⟨4, _⟩ => ⟨S8, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .f32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S_, .i32⟩
  | .hbm, ⟨37, _⟩ => ⟨S16777216, .i32⟩
  | .hbm, ⟨38, _⟩ => ⟨S16777216, .i1⟩
  | .hbm, ⟨39, _⟩ => ⟨S_, .i32⟩
  | .hbm, ⟨40, _⟩ => ⟨S16777216, .i32⟩
  | .hbm, ⟨41, _⟩ => ⟨S16777216, .i32⟩
  | .hbm, ⟨42, _⟩ => ⟨S16777216, .i32⟩
  | .hbm, ⟨43, _⟩ => ⟨S16777216x1, .i32⟩
  | .hbm, ⟨44, _⟩ => ⟨S16777216, .f32⟩
  | .hbm, ⟨45, _⟩ => ⟨S16777216, .f32⟩
  | .hbm, ⟨46, _⟩ => ⟨S524288x32, .f32⟩
  | .hbm, ⟨47, _⟩ => ⟨S524288x1, .f32⟩
  | .hbm, ⟨48, _⟩ => ⟨S524288x32, .f32⟩
  | .hbm, ⟨49, _⟩ => ⟨S524288x32, .f32⟩
  | .hbm, ⟨50, _⟩ => ⟨S4096x4096, .f32⟩
  | .hbm, ⟨51, _⟩ => ⟨S4x2048x4096, .f32⟩
  | .hbm, ⟨52, _⟩ => ⟨S1x1x4096, .f32⟩
  | .hbm, ⟨53, _⟩ => ⟨S4x2048x4096, .f32⟩
  | .hbm, ⟨54, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_cst_6 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_c_9 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S524288x32 : S16777216.ShapeCasts S524288x32
  bcast_S524288_S524288x1_0 : S524288.BroadcastsInDim S524288x1 (![0] : Fin 1 → Fin S524288x1.rank)
  bcast_S524288x1_S524288x32_0_1 : S524288x1.BroadcastsInDim S524288x32 (![0, 1] : Fin 2 → Fin S524288x32.rank)
  shapeCasts_S524288x32_S4096x4096 : S524288x32.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8_S16777216x1_S16777216_n_0_n_n_0_1_1_wf : GatherDims.WF S8 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S8_S16777216x1_S16777216_n_0_n_n_0_1_1 : GatherDims S8 S16777216x1 S16777216 where
  offsetDims := []
  collapsedSliceDims := [0]
  operandBatchingDims := []
  startIndicesBatchingDims := []
  startIndexMap := [0]
  indexVectorDim := 1
  sliceSizes := ![1]
  wf := gather_S8_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Glue.lean ====
/-
  The host stretches of the kernel's @main are reshapes only. Read through them: the two arrays region 0 is entered
  with are the packed words and the scales re-laid as 4096 rows; region 1 is entered with region 0's output, `x`
  re-laid as 8192 rows and the bias as one row; the result is region 1's output re-laid as (4, 2048, 4096).
-/
import proofs.«407928_j46591805227029_3_alg».proof.Proof.Gen.KernelIdeal.Frame
import Idealize.ShloMosaic.Lib.StableHlo.Run

noncomputable section

namespace Cert.KernelIdeal.Glue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Region 0 is entered with the packed words as 4096 rows of 2048. -/
theorem V1_v0 (c : Dev nD) : (V1 m ρ c main_v0 : Vec F S4096x2048 .i32)
    = shapeCast S4096x2048 (m ((c : Thread nD τ).loc main_arg1)) shapeCasts_S8388608_S4096x2048 := by
  show StableHlo.after hostOps0 (W0 m ρ c) (Proc.devRef .tc main_v0) = _
  after_results
  rfl

/-- Region 0 is entered with the scales as 4096 rows of 128. -/
theorem V1_v1 (c : Dev nD) : (V1 m ρ c main_v1 : Vec F S4096x128 .f32)
    = shapeCast S4096x128 (m ((c : Thread nD τ).loc main_arg2)) shapeCasts_S524288_S4096x128 := by
  show StableHlo.after hostOps0 (W0 m ρ c) (Proc.devRef .tc main_v1) = _
  after_results
  rfl

/-- Region 1 is entered with region 0's output array as region 0 left it. -/
theorem V3_v2 (c : Dev nD) : (V3 m ρ c main_v2 : Vec F S4096x4096 .bf16) = (dat0 (V1 m ρ) c).arrAt 2 cfg0.N := by
  show StableHlo.after hostOps1 (W2 m ρ c) (Proc.devRef .tc main_v2) = _
  after_results
  exact W2_arr m ρ c 2

/-- Region 1 is entered with `x` as 8192 rows of 4096. -/
theorem V3_v3 (c : Dev nD) : (V3 m ρ c main_v3 : Vec F S8192x4096 .f32)
    = shapeCast S8192x4096 (m ((c : Thread nD τ).loc main_arg0)) shapeCasts_S4x2048x4096_S8192x4096 := by
  show StableHlo.after hostOps1 (W2 m ρ c) (Proc.devRef .tc main_v3) = _
  after_results
  rw [W2_of_ne m ρ c main_arg0 (by decide)]
  show shapeCast S8192x4096 (StableHlo.after hostOps0 (W0 m ρ c) (Proc.devRef .tc main_arg0)) _ = _
  after_results

/-- Region 1 is entered with the bias as one row. -/
theorem V3_v4 (c : Dev nD) : (V3 m ρ c main_v4 : Vec F S1x4096 .f32)
    = shapeCast S1x4096 (m ((c : Thread nD τ).loc main_arg3)) shapeCasts_S4096_S1x4096 := by
  show StableHlo.after hostOps1 (W2 m ρ c) (Proc.devRef .tc main_v4) = _
  after_results
  rw [W2_of_ne m ρ c main_arg3 (by decide)]
  show shapeCast S1x4096 (StableHlo.after hostOps0 (W0 m ρ c) (Proc.devRef .tc main_arg3)) _ = _
  after_results

/-- The result array at the last boundary is region 1's output array re-laid. -/
theorem W5_v6 (c : Dev nD) : (W5 m ρ c (Proc.devRef .tc main_v6) : Vec F S4x2048x4096 .f32)
    = shapeCast S4x2048x4096 ((dat1 (V3 m ρ) c).arrAt 3 cfg1.N : Vec F S8192x4096 .f32) shapeCasts_S8192x4096_S4x2048x4096 := by
  show StableHlo.after hostOps2 (W4 m ρ c) (Proc.devRef .tc main_v6) = _
  after_results
  rw [W4_arr m ρ c 3]
  rfl

end Cert.KernelIdeal.Glue

end
-- ==== Proof.Spec.lean ====
/-
  The mathematics both programs compute, stated once over literal shapes and free of either program's text.

  A packed word `p` carries two 4-bit codes: its high code `(p >> 4) & 15` and its low code `p & 15`. A code `n`
  denotes `mag n * sgn n`: `mag` reads the low three bits as an index into 0, 1/2, 1, 3/2, 2, 3, 4, 6 and `sgn` is
  -1 when bit 3 is set and 1 otherwise. The dequantized weight has 4096 rows of 4096 entries; entry (r, c) is the code
  of word `r * 2048 + c / 2` (the high code at even `c`, the low code at odd `c`) times the scale of the
  32-entry group `r * 128 + c / 32`. The output at (b, s, o) is the inner product of row (b, s) of `x` with row `o`
  of the weight, plus `bias o`.
-/
import Idealize.ShloMosaic.PureOps.Ideal
import Idealize.ShloMosaic.Lib.ValueIdx

noncomputable section

namespace Cert.Mx

open Idealize.ShloMosaic Idealize.ShloMosaic.ValueIdx

/-- The shapes, literal. -/
abbrev SQ : Shape := ⟨1, ![8388608]⟩
abbrev SS : Shape := ⟨1, ![524288]⟩
abbrev SB : Shape := ⟨1, ![4096]⟩
abbrev SX : Shape := ⟨3, ![4, 2048, 4096]⟩
abbrev SW : Shape := ⟨2, ![4096, 4096]⟩
abbrev SQ2 : Shape := ⟨2, ![4096, 2048]⟩
abbrev SS2 : Shape := ⟨2, ![4096, 128]⟩
abbrev SX2 : Shape := ⟨2, ![8192, 4096]⟩
abbrev SB2 : Shape := ⟨2, ![1, 4096]⟩

/-- The high and the low 4-bit code of a packed word. -/
def hi (p : BitVec 32) : BitVec 32 := IntOp.andi (IntOp.shrsi .vector p 4#32) 15#32
def lo (p : BitVec 32) : BitVec 32 := IntOp.andi p 15#32

/-- The sign a code carries in bit 3. -/
def sgn (n : BitVec 32) : EReal :=
  Scalar.select (IntOp.cmpi .eq (IntOp.andi (IntOp.shrsi .vector n 3#32) 1#32) 1#32)
    (Ideal.ofBits .f32 0xBF800000#32) (Ideal.ofBits .f32 0x3F800000#32)

/-- The magnitude a code's low three bits index: 0, 1/2, 1, 3/2, 2, 3, 4, 6. -/
def mag (n : BitVec 32) : EReal :=
  Scalar.select (IntOp.cmpi .eq (IntOp.andi n 7#32) 0#32) (Ideal.ofBits .f32 0x00000000#32)
  (Scalar.select (IntOp.cmpi .eq (IntOp.andi n 7#32) 1#32) (Ideal.ofBits .f32 0x3F000000#32)
  (Scalar.select (IntOp.cmpi .eq (IntOp.andi n 7#32) 2#32) (Ideal.ofBits .f32 0x3F800000#32)
  (Scalar.select (IntOp.cmpi .eq (IntOp.andi n 7#32) 3#32) (Ideal.ofBits .f32 0x3FC00000#32)
  (Scalar.select (IntOp.cmpi .eq (IntOp.andi n 7#32) 4#32) (Ideal.ofBits .f32 0x40000000#32)
  (Scalar.select (IntOp.cmpi .eq (IntOp.andi n 7#32) 5#32) (Ideal.ofBits .f32 0x40400000#32)
  (Scalar.select (IntOp.cmpi .eq (IntOp.andi n 7#32) 6#32) (Ideal.ofBits .f32 0x40800000#32)
    (Ideal.ofBits .f32 0x40C00000#32)))))))

/-- The value of a code. -/
def dec (n : BitVec 32) : EReal := mag n * sgn n

/-- Word `r * 2048 + k` of the packed weights, `k < 2048`. -/
abbrev qIdx (r : Fin 4096) (k : ℕ) (hk : k < 2048) : SQ.Idx := ix1 ⟨r.val * 2048 + k, by have := r.isLt; omega⟩
/-- Scale `r * 128 + g`, `g < 128`. -/
abbrev sIdx (r : Fin 4096) (g : ℕ) (hg : g < 128) : SS.Idx := ix1 ⟨r.val * 128 + g, by have := r.isLt; omega⟩

/-- Entry (r, c) of the dequantized weight, over explicit coordinates. -/
def Wrc (q : SQ.Idx → BitVec 32) (s : SS.Idx → EReal) (r c : Fin 4096) : EReal :=
  (if c.val % 2 = 0
    then dec (hi (q (qIdx r (c.val / 2) (by have := c.isLt; omega))))
    else dec (lo (q (qIdx r (c.val / 2) (by have := c.isLt; omega)))))
  * s (sIdx r (c.val / 32) (by have := c.isLt; omega))

/-- THE DEQUANTIZED WEIGHT as an array. -/
def W (q : SQ.Idx → BitVec 32) (s : SS.Idx → EReal) : SW.Idx → EReal := fun j => Wrc q s (j 0) (j 1)

/-- Column `512 * k + kk` of a 4096-wide row. -/
abbrev col (k : Fin 8) (kk : Fin 512) : Fin 4096 := ⟨512 * k.val + kk.val, by have := k.isLt; have := kk.isLt; omega⟩

/-- A running sum in point order: `b0 + p 0`, then `+ p 1`, …, `+ p n`. -/
def acc (b0 : EReal) (p : Fin 8 → EReal) : (n : ℕ) → n < 8 → EReal
  | 0, h => b0 + p ⟨0, h⟩
  | n + 1, h => acc b0 p n (Nat.lt_of_succ_lt h) + p ⟨n + 1, h⟩

/-- THE OUTPUT as the reference orders it: the whole inner product, then the bias. -/
def Out (x : SX.Idx → EReal) (w : SW.Idx → EReal) (b : SB.Idx → EReal) : SX.Idx → EReal := fun j =>
  (∑ i : Fin 4096, x (ix3 (j 0) (j 1) i) * w (ix2 (j 2) i)) + b (ix1 (j 2))

/-- THE OUTPUT as the kernel orders it, over the flattened rows `m = b * 2048 + s`: the bias first, then the eight
    512-wide partial inner products added in order. -/
def Out2 (X : SX2.Idx → EReal) (w : SW.Idx → EReal) (B : SB2.Idx → EReal) : SX2.Idx → EReal := fun j =>
  acc (B (ix2 (0 : Fin 1) (j 1))) (fun k => ∑ kk : Fin 512, X (ix2 (j 0) (col k kk)) * w (ix2 (j 1) (col k kk))) 7 (by decide)

end Cert.Mx

end
-- ==== Proof.DequantBody.lean ====
/-
  What the dequantization body leaves in its output block, entry by entry. The block has 256 rows of 4096 entries;
  entry (r, c) is the code of packed word (r, c / 2) of the block of words — its high code at even `c`, its low code
  at odd `c` — times the scale (r, c / 32) of the block of scales. The scale reaches column `c` through a product
  with a 0/1 matrix whose entry (g, k) is one exactly when `g = k / 16`: at the extended reals that product is the
  one scale `g = (c / 2) / 16 = c / 32`.
-/
import proofs.«407928_j46591805227029_3_alg».proof.Proof.Gen.KernelIdeal.Frame
import proofs.«407928_j46591805227029_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Dequant

open Cert.KernelIdeal Cert.KernelIdeal.Gen
open Idealize.ShloMosaic Idealize.ShloMosaic.TcCoe Idealize.ShloMosaic.ValueIdx

/-- The code of the high half of a packed word, read at an entry. -/
private theorem hi_apply (v0 : Vec Ideal S256x2048 .i32) (r : Fin 256) (k : Fin 2048) :
    (k0_pay13 (F := Ideal) (k0_pay5 v0) (k0_pay7 v0) (k0_pay8 v0) (k0_pay9 v0) (k0_pay10 v0) (k0_pay11 v0) (k0_pay12 v0)) (ix2 r k)
      = Cert.Mx.dec (Cert.Mx.hi (v0 (ix2 r k))) := by
  unfold k0_pay13 k0_pay5 k0_pay7 k0_pay8 k0_pay9 k0_pay10 k0_pay11 k0_pay12 k0_pay6 k0_pay3 k0_pay2
  simp only [shapeCast_self]
  rfl

/-- The code of the low half of a packed word, read at an entry. -/
private theorem lo_apply (v0 : Vec Ideal S256x2048 .i32) (r : Fin 256) (k : Fin 2048) :
    (k0_pay23 (F := Ideal) (k0_pay14 (F := Ideal) (k0_pay4 v0)) (k0_pay16 (k0_pay4 v0)) (k0_pay17 (k0_pay4 v0)) (k0_pay18 (k0_pay4 v0)) (k0_pay19 (k0_pay4 v0)) (k0_pay20 (k0_pay4 v0)) (k0_pay21 (k0_pay4 v0)) (k0_pay22 (F := Ideal) (k0_pay4 v0)) (Scalar.ofBits .f32 0x40400000#32)) (ix2 r k)
      = Cert.Mx.dec (Cert.Mx.lo (v0 (ix2 r k))) := by
  unfold k0_pay23 k0_pay14 k0_pay16 k0_pay17 k0_pay18 k0_pay19 k0_pay20 k0_pay21 k0_pay22 k0_pay15 k0_pay4 k0_pay2
  simp only [shapeCast_self]
  rfl

/-- The interleave: two blocks of 256 × 2048 laid side by side along a new last axis of extent two and read as one block
    of 256 × 4096 hold, at column `c`, the first block's column `c / 2` at even `c` and the second's at odd `c`. -/
private theorem interleave_apply {α : Type} (a b : S256x2048.Idx → α) (r : Fin 256) (c : Fin 4096) :
    shapeCast S256x4096 (concatenate S256x2048x2 2 [⟨S256x2048x1, shapeCast S256x2048x1 a shapeCasts_S256x2048_S256x2048x1⟩, ⟨S256x2048x1, shapeCast S256x2048x1 b shapeCasts_S256x2048_S256x2048x1⟩] concatenates_S256x2048x1_S256x2048x1_S256x2048x2_d2) shapeCasts_S256x2048x2_S256x4096 (ix2 r c)
      = if c.val % 2 = 0 then a (ix2 r (⟨c.val / 2, by have := c.isLt; omega⟩ : Fin 2048)) else b (ix2 r (⟨c.val / 2, by have := c.isLt; omega⟩ : Fin 2048)) := by
  have hc := c.isLt
  rw [shapeCast_apply _ _ (ix2 r c) (ix3 r (⟨c.val / 2, by omega⟩ : Fin 2048) (⟨c.val % 2, by omega⟩ : Fin 2))
    (by rw [Shape.rowMajor_val_two, Shape.rowMajor_val_three]; show (r.val * 2048 + c.val / 2) * 2 + c.val % 2 = r.val * 4096 + c.val; omega)]
  by_cases h : c.val % 2 = 0
  · rw [if_pos h]
    rw [concatenate_pair_apply_left (t := S256x2048x2) (s₁ := S256x2048x1) (s₂ := S256x2048x1) (2 : Fin 3) _ _ _
      (ix3 r (⟨c.val / 2, by omega⟩ : Fin 2048) (⟨c.val % 2, by omega⟩ : Fin 2)) rfl (ix3 r (⟨c.val / 2, by omega⟩ : Fin 2048) (0 : Fin 1))
      (by intro b; match b with
          | ⟨0, _⟩ => rfl
          | ⟨1, _⟩ => rfl
          | ⟨2, _⟩ => show (0 : ℕ) = c.val % 2; omega)]
    rw [shapeCast_apply _ _ _ (ix2 r (⟨c.val / 2, by omega⟩ : Fin 2048))
      (by rw [Shape.rowMajor_val_two, Shape.rowMajor_val_three]; show r.val * 2048 + c.val / 2 = (r.val * 2048 + c.val / 2) * 1 + 0; omega)]
  · rw [if_neg h]
    rw [concatenate_pair_apply_right (t := S256x2048x2) (s₁ := S256x2048x1) (s₂ := S256x2048x1) (2 : Fin 3) _ _ _
      (ix3 r (⟨c.val / 2, by omega⟩ : Fin 2048) (⟨c.val % 2, by omega⟩ : Fin 2)) rfl rfl (ix3 r (⟨c.val / 2, by omega⟩ : Fin 2048) (0 : Fin 1))
      (by intro b hb; match b with
          | ⟨0, _⟩ => rfl
          | ⟨1, _⟩ => rfl
          | ⟨2, _⟩ => exact absurd rfl hb)
      (by show 0 + 1 = c.val % 2; omega)]
    rw [shapeCast_apply _ _ _ (ix2 r (⟨c.val / 2, by omega⟩ : Fin 2048))
      (by rw [Shape.rowMajor_val_two, Shape.rowMajor_val_three]; show r.val * 2048 + c.val / 2 = (r.val * 2048 + c.val / 2) * 1 + 0; omega)]

/-- The floor division by sixteen as the body spells it: the quotient rounded toward zero, less one when the operands'
    signs differ and the remainder is not zero. -/
private def floorDiv16 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On the words of the columns, which are not negative, it is the quotient of the naturals. -/
private theorem floorDiv16_ofNat : ∀ k : Fin 2048, floorDiv16 (BitVec.ofNat 32 k.val) = BitVec.ofNat 32 (k.val / 16) := by
  decide +kernel

/-- Entry (g, k) of the comparison of the row number with the column's group. -/
private theorem rep_word (g : Fin 128) (k : Fin 2048) :
    k0_pay25 (ix2 g k) = IntOp.cmpi .eq (BitVec.ofNat 32 g.val) (BitVec.ofNat 32 (k.val / 16)) := by
  rw [← floorDiv16_ofNat k, ← iota_single_apply .tc S128x2048 32 0 iota_S128x2048_d0_w32 (ix2 g k),
    ← iota_single_apply .tc S128x2048 32 1 iota_S128x2048_d1_w32 (ix2 g k)]
  rfl

/-- The same entry as a bit: one exactly when the row number is the column's group. -/
private theorem rep_bit (g : Fin 128) (k : Fin 2048) :
    k0_pay25 (ix2 g k) = if g.val = k.val / 16 then 1#1 else 0#1 := by
  rw [rep_word]
  have hg := g.isLt
  have hk := k.isLt
  unfold IntOp.cmpi
  by_cases h : g.val = k.val / 16
  · rw [if_pos h, h]; simp
  · rw [if_neg h]
    have : ¬ BitVec.ofNat 32 g.val = BitVec.ofNat 32 (k.val / 16) := by
      intro e
      have := congrArg BitVec.toNat e
      simp only [BitVec.toNat_ofNat] at this
      omega
    have hb : (BitVec.ofNat 32 g.val == BitVec.ofNat 32 (k.val / 16)) = false := beq_eq_false_iff_ne.mpr this
    rw [hb]; rfl

/-! The operand indices of the product with the 0/1 matrix, axis by axis. -/
private theorem lhs_axis0 (i : S256x2048.Idx) (q : dot_S256x128_S128x2048_S256x2048_1_0_0_1_n_n.contr.Idx) :
    (dot_S256x128_S128x2048_S256x2048_1_0_0_1_n_n.lhsIdx i q 0).val = (i 0).val := by
  unfold DotDims.lhsIdx
  rw [dif_neg (show ¬(0 : Fin S256x128.rank) ∈ dot_S256x128_S128x2048_S256x2048_1_0_0_1_n_n.lhsBatch by decide), dif_pos (show (0 : Fin S256x128.rank) ∈ dot_S256x128_S128x2048_S256x2048_1_0_0_1_n_n.lhsNonContracting by decide)]
  rfl
private theorem lhs_axis1 (i : S256x2048.Idx) (q : dot_S256x128_S128x2048_S256x2048_1_0_0_1_n_n.contr.Idx) :
    (dot_S256x128_S128x2048_S256x2048_1_0_0_1_n_n.lhsIdx i q 1).val = (q ⟨0, by decide⟩).val :=
  dot_S256x128_S128x2048_S256x2048_1_0_0_1_n_n.lhsIdx_val_of_single rfl i q
private theorem rhs_axis0 (i : S256x2048.Idx) (q : dot_S256x128_S128x2048_S256x2048_1_0_0_1_n_n.contr.Idx) :
    (dot_S256x128_S128x2048_S256x2048_1_0_0_1_n_n.rhsIdx i q 0).val = (q ⟨0, by decide⟩).val :=
  dot_S256x128_S128x2048_S256x2048_1_0_0_1_n_n.rhsIdx_val_of_single rfl i q
private theorem rhs_axis1 (i : S256x2048.Idx) (q : dot_S256x128_S128x2048_S256x2048_1_0_0_1_n_n.contr.Idx) :
    (dot_S256x128_S128x2048_S256x2048_1_0_0_1_n_n.rhsIdx i q 1).val = (i 1).val := by
  unfold DotDims.rhsIdx
  rw [dif_neg (show ¬(1 : Fin S128x2048.rank) ∈ dot_S256x128_S128x2048_S256x2048_1_0_0_1_n_n.rhsBatch by decide), dif_pos (show (1 : Fin S128x2048.rank) ∈ dot_S256x128_S128x2048_S256x2048_1_0_0_1_n_n.rhsNonContracting by decide)]
  rfl

/-- The product of the scales with the 0/1 matrix: entry (r, k) is the one scale (r, k / 16). -/
private theorem scale_apply (x1 : Vec Ideal S256x128 .f32) (r : Fin 256) (k : Fin 2048) :
    (matmul dot_S256x128_S128x2048_S256x2048_1_0_0_1_n_n (some .fp32) (k0_pay24 x1) (select k0_pay25 (k0_pay26 (F := Ideal)) (k0_pay27 (F := Ideal))) (constant (F := Ideal) S256x2048 .f32 0x00000000#32) : S256x2048.Idx → EReal) (ix2 r k)
      = x1 (ix2 r (⟨k.val / 16, by have := k.isLt; omega⟩ : Fin 128)) := by
  have hk := k.isLt
  unfold k0_pay24
  rw [shapeCast_self]
  simp only [matmul]
  rw [Ideal.matmul_constant_zero_apply, ← Equiv.sum_comp (contrEquiv1 dot_S256x128_S128x2048_S256x2048_1_0_0_1_n_n 128 rfl rfl).symm]
  have idx : ∀ g : Fin 128,
      dot_S256x128_S128x2048_S256x2048_1_0_0_1_n_n.lhsIdx (ix2 r k) ((contrEquiv1 dot_S256x128_S128x2048_S256x2048_1_0_0_1_n_n 128 rfl rfl).symm g) = ix2 r g
      ∧ dot_S256x128_S128x2048_S256x2048_1_0_0_1_n_n.rhsIdx (ix2 r k) ((contrEquiv1 dot_S256x128_S128x2048_S256x2048_1_0_0_1_n_n 128 rfl rfl).symm g) = ix2 g k := by
    intro g
    have hg := contrEquiv1_symm_val dot_S256x128_S128x2048_S256x2048_1_0_0_1_n_n 128 rfl rfl g
    refine ⟨funext fun a => Fin.ext ?_, funext fun a => Fin.ext ?_⟩
    · match a with
      | ⟨0, _⟩ => exact lhs_axis0 _ _
      | ⟨1, _⟩ => exact (lhs_axis1 _ _).trans hg
    · match a with
      | ⟨0, _⟩ => exact (rhs_axis0 _ _).trans hg
      | ⟨1, _⟩ => exact rhs_axis1 _ _
  rw [Finset.sum_eq_single (⟨k.val / 16, by omega⟩ : Fin 128)]
  · rw [(idx _).1, (idx _).2, select_apply, rep_bit, if_pos rfl, select_one]
    unfold k0_pay26
    rw [broadcast_apply]
    show _ * Ideal.ofBits .f32 0x3F800000#32 = _
    rw [Ideal.ofBits_one_f32, mul_one]
  · intro g _ hg
    rw [(idx _).1, (idx _).2, select_apply, rep_bit, if_neg (fun e => hg (Fin.ext e)), select_zero]
    unfold k0_pay27
    rw [broadcast_apply]
    show _ * Ideal.ofBits .f32 0x00000000#32 = _
    rw [Ideal.ofBits_zero_f32, mul_zero]
  · intro h; exact absurd (Finset.mem_univ _) h

/-- The zero offsets of the whole-block rectangles. -/
private theorem hz : (![0, 0] : Fin 2 → Nat) = fun _ => 0 := funext fun a => by fin_cases a <;> rfl

/-- The scale that reaches column `c / 2` of the half-width block is scale `c / 32`. -/
private theorem scale_half_apply (x1 : Vec Ideal S256x128 .f32) (r : Fin 256) (c : Fin 4096) :
    (matmul dot_S256x128_S128x2048_S256x2048_1_0_0_1_n_n (some .fp32) (k0_pay24 x1) (select k0_pay25 (k0_pay26 (F := Ideal)) (k0_pay27 (F := Ideal))) (constant (F := Ideal) S256x2048 .f32 0x00000000#32) : S256x2048.Idx → EReal) (ix2 r (⟨c.val / 2, by have := c.isLt; omega⟩ : Fin 2048))
      = x1 (ix2 r (⟨c.val / 32, by have := c.isLt; omega⟩ : Fin 128)) :=
  (scale_apply x1 r ⟨c.val / 2, by have := c.isLt; omega⟩).trans
    (congrArg (fun t => x1 (ix2 r t)) (Fin.ext (by show c.val / 2 / 16 = c.val / 32; omega)))

/-- Entry (r, c) of the block the body stores. -/
theorem out_apply (x0 : Vec Ideal S256x2048 .i32) (x1 : Vec Ideal S256x128 .f32) (r : Fin 256) (c : Fin 4096) :
    (out0_2 (F := Ideal) x0 x1 : S256x4096.Idx → EReal) (ix2 r c)
      = (if c.val % 2 = 0
          then Cert.Mx.dec (Cert.Mx.hi (x0 (ix2 r (⟨c.val / 2, by have := c.isLt; omega⟩ : Fin 2048))))
          else Cert.Mx.dec (Cert.Mx.lo (x0 (ix2 r (⟨c.val / 2, by have := c.isLt; omega⟩ : Fin 2048)))))
        * x1 (ix2 r (⟨c.val / 32, by have := c.isLt; omega⟩ : Fin 128)) := by
  unfold out0_2
  rw [View.canon_unit_zero hz]
  simp only [View.ld_unit_zero (S := S256x2048) hz, View.ld_unit_zero (S := S256x128) hz]
  unfold k0_pay1
  refine (interleave_apply _ _ r c).trans ?_
  by_cases h : c.val % 2 = 0
  · rw [if_pos h, if_pos h, mulf_apply, hi_apply, scale_half_apply]
  · rw [if_neg h, if_neg h, mulf_apply, lo_apply, scale_half_apply]

end Cert.KernelIdeal.Dequant

end
-- ==== Proof.DequantArr.lean ====
/-
  Region 0's output array. Point `t` of its 16 points writes rows `256 t … 256 t + 255`; the blocks tile the array,
  each the restriction of ONE whole-array function, the dequantized weight of the packed words and scales the region
  was entered with.
-/
import proofs.«407928_j46591805227029_3_alg».proof.Proof.DequantBody

set_option maxRecDepth 16384
noncomputable section

namespace Cert.KernelIdeal.Dequant

open Cert.KernelIdeal Cert.KernelIdeal.Gen
open Idealize.ShloMosaic Idealize.ShloMosaic.TcCoe Idealize.ShloMosaic.ValueIdx
open Idealize.ShloMosaic.Pipeline (Dat)

/-- The three windows' block indices at point `t` are all `(t, 0)`: decided once over the grid. -/
private theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b)) (c : Dev nD)

/-- The block of words at point `t` is rows `256 t … 256 t + 255` of the array of words. -/
private theorem words_block_apply (t : Fin cfg0.N) (x : S256x2048.Idx) (k : S4096x2048.Idx)
    (hk0 : (k 0).val = 256 * t.val + (x 0).val) (hk1 : (k 1).val = (x 1).val) :
    (iblk0 (F := Ideal) V c 0 t : Vec Ideal S256x2048 .i32) x = (V c main_v0 : Vec Ideal S4096x2048 .i32) k := by
  obtain ⟨e0, e1, -⟩ := blockIdx t
  unfold iblk0
  rw [View.read_apply]
  show V c main_v0 _ = V c main_v0 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 2048 + 1 * (x 1).val = (k 1).val; rw [e1, hk1]; omega

/-- The block of scales at point `t` is rows `256 t … 256 t + 255` of the array of scales. -/
private theorem scales_block_apply (t : Fin cfg0.N) (x : S256x128.Idx) (k : S4096x128.Idx)
    (hk0 : (k 0).val = 256 * t.val + (x 0).val) (hk1 : (k 1).val = (x 1).val) :
    (iblk0 (F := Ideal) V c 1 t : Vec Ideal S256x128 .f32) x = (V c main_v1 : Vec Ideal S4096x128 .f32) k := by
  obtain ⟨-, -, e0, e1, -⟩ := blockIdx t
  unfold iblk0
  rw [View.read_apply]
  show V c main_v1 _ = V c main_v1 _
  congr 1
  funext a
  apply Fin.ext
  match a with
  | ⟨0, _⟩ => show win0_1.index t (0 : Fin 2) * 256 + 1 * (x 0).val = (k 0).val; rw [e0, hk0]; omega
  | ⟨1, _⟩ => show win0_1.index t (1 : Fin 2) * 128 + 1 * (x 1).val = (k 1).val; rw [e1, hk1]; omega

end Blocks

section Array

variable (V : (c : Dev nD) → (b : Ref sig .tc) → Buf (Elt Ideal) ((c : Thread nD τ).loc b)) (c : Dev nD)
variable (q : Cert.Mx.SQ.Idx → BitVec 32) (s : Cert.Mx.SS.Idx → EReal)

/-- Row `256 t + r` of the 4096 rows. -/
private abbrev blockRow (t : Fin cfg0.N) (r : Fin 256) : Fin 4096 :=
  ⟨256 * t.val + r.val, by have h : t.val < 16 := lt_of_lt_of_eq t.isLt N_0; have := r.isLt; omega⟩

/-- A word of the block at point `t`, in the flat array of words. -/
private theorem words_block_flat
    (hq : (V c main_v0 : Vec Ideal S4096x2048 .i32) = shapeCast S4096x2048 q shapeCasts_S8388608_S4096x2048)
    (t : Fin cfg0.N) (r : Fin 256) (k : Fin 2048) :
    (iblk0 (F := Ideal) V c 0 t : Vec Ideal S256x2048 .i32) (ix2 r k) = q (Cert.Mx.qIdx (blockRow t r) k.val k.isLt) := by
  rw [words_block_apply V c t (ix2 r k) (ix2 (blockRow t r) k) rfl rfl, hq]
  refine shapeCast_apply q _ _ _ ?_
  rw [Shape.rowMajor_val_one, Shape.rowMajor_val_two]
  rfl

/-- A scale of the block at point `t`, in the flat array of scales. -/
private theorem scales_block_flat
    (hs : (V c main_v1 : Vec Ideal S4096x128 .f32) = shapeCast S4096x128 s shapeCasts_S524288_S4096x128)
    (t : Fin cfg0.N) (r : Fin 256) (g : Fin 128) :
    (iblk0 (F := Ideal) V c 1 t : Vec Ideal S256x128 .f32) (ix2 r g) = s (Cert.Mx.sIdx (blockRow t r) g.val g.isLt) := by
  rw [scales_block_apply V c t (ix2 r g) (ix2 (blockRow t r) g) rfl rfl, hs]
  refine shapeCast_apply s _ _ _ ?_
  rw [Shape.rowMajor_val_one, Shape.rowMajor_val_two]
  rfl

/-- The weight read through point `t`'s output block: entry (r, cc) of the block is entry (256 t + r, cc). -/
private theorem weight_block_apply (t : Fin cfg0.N) (r : Fin 256) (cc : Fin 4096) :
    (((cfg0.win 2).blk t).view.read (Elt Ideal) (Cert.Mx.W q s) : S256x4096.Idx → EReal) (ix2 r cc)
      = Cert.Mx.Wrc q s (blockRow t r) cc := by
  obtain ⟨-, -, -, -, e0, e1⟩ := blockIdx t
  rw [View.read_apply]
  show Cert.Mx.Wrc q s _ _ = _
  congr 1 <;> apply Fin.ext
  · show win0_2.index t (0 : Fin 2) * 256 + 1 * r.val = 256 * t.val + r.val; rw [e0]; omega
  · show win0_2.index t (1 : Fin 2) * 4096 + 1 * cc.val = cc.val; rw [e1]; omega

/-- WHAT POINT `t` WRITES BACK is block `t` of the dequantized weight. -/
private theorem weight_flushed
    (hq : (V c main_v0 : Vec Ideal S4096x2048 .i32) = shapeCast S4096x2048 q shapeCasts_S8388608_S4096x2048)
    (hs : (V c main_v1 : Vec Ideal S4096x128 .f32) = shapeCast S4096x128 s shapeCasts_S524288_S4096x128)
    (t : Fin cfg0.N) :
    (dat0 (F := Ideal) V c).flushed 2 t = ((cfg0.win 2).blk t).view.read (Elt Ideal) (Cert.Mx.W q s) := by
  show (cfg0.win 2).cut (grid0.coords t) ((dat0 (F := Ideal) V c).after 2 t) = _
  rw [after0_2]
  funext j
  show (out0_2 (F := Ideal) (iblk0 V c 0 t) (iblk0 V c 1 t) : S256x4096.Idx → EReal) j
    = (((cfg0.win 2).blk t).view.read (Elt Ideal) (Cert.Mx.W q s) : S256x4096.Idx → EReal) j
  obtain ⟨r, cc, rfl⟩ : ∃ (r : Fin 256) (cc : Fin 4096), j = ix2 r cc := ⟨j 0, j 1, eq_ix2 j⟩
  rw [out_apply, weight_block_apply, words_block_flat V c q hq, scales_block_flat V c s hs]
  rfl

end Array

/-- An index of the array is in point `t`'s block iff each coordinate is in the block's range on its axis. -/
private theorem mem_weight_block (t : Fin cfg0.N) (i : S4096x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Row `R` of the array is in the block of point `R / 256`, and every point writes back. -/
private theorem weight_cover (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  let t : Fin cfg0.N := ⟨(i 0).val / 256, lt_of_lt_of_eq (by omega) N_0.symm⟩
  have ht : t.val = (i 0).val / 256 := rfl
  obtain ⟨-, -, -, -, e0, e1⟩ := blockIdx t
  refine ⟨t, flush0_2 t, ?_⟩
  rw [mem_weight_block]
  intro a
  match a with
  | ⟨0, _⟩ =>
    show win0_2.index t (0 : Fin 2) * 256 ≤ (i 0).val ∧ (i 0).val < win0_2.index t (0 : Fin 2) * 256 + 256
    rw [e0, ht]; omega
  | ⟨1, _⟩ =>
    show win0_2.index t (1 : Fin 2) * 4096 ≤ (i 1).val ∧ (i 1).val < win0_2.index t (1 : Fin 2) * 4096 + 4096
    rw [e1]; omega

/-- Entered with the packed words `q` and the scales `s` re-laid as rows, region 0 leaves the dequantized weight
    in its output array. -/
theorem arr_eq (V : (c : Dev nD) → (b : Ref sig .tc) → Buf (Elt Ideal) ((c : Thread nD τ).loc b)) (c : Dev nD)
    (q : Cert.Mx.SQ.Idx → BitVec 32) (s : Cert.Mx.SS.Idx → EReal)
    (hq : (V c main_v0 : Vec Ideal S4096x2048 .i32) = shapeCast S4096x2048 q shapeCasts_S8388608_S4096x2048)
    (hs : (V c main_v1 : Vec Ideal S4096x128 .f32) = shapeCast S4096x128 s shapeCasts_S524288_S4096x128) :
    ((dat0 (F := Ideal) V c).arrAt 2 cfg0.N : S4096x4096.Idx → EReal) = Cert.Mx.W q s :=
  (dat0 (F := Ideal) V c).arrAt_eq_of_cover 2 (Cert.Mx.W q s) (fun t _ => weight_flushed V c q s hq hs t) weight_cover

end Cert.KernelIdeal.Dequant

end
-- ==== Proof.MatmulBody.lean ====
/-
  What the matrix-product body leaves in its output block, in its two cases. At the first point of a row of points
  (the contraction tile is 0) the block is reset to the bias row and the tile's product added; at every other point
  the tile's product is added to what the block held. The tile's product at (p, o) is the sum over the 512 columns of
  the tile of x(p, ·) times w(o, ·): both operands are contracted along their second axis.
-/
import proofs.«407928_j46591805227029_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Matmul

open Cert.KernelIdeal Cert.KernelIdeal.Gen
open Idealize.ShloMosaic Idealize.ShloMosaic.TcCoe Idealize.ShloMosaic.ValueIdx

/-- The tile's product at (p, o). -/
def tileDot (x0 : Vec Ideal S1024x512 .f32) (x1 : Vec Ideal S4096x512 .bf16) (p : Fin 1024) (o : Fin 4096) : EReal :=
  ∑ kk : Fin 512, x0 (ix2 p kk) * x1 (ix2 o kk)

/-! ## The block each case leaves, as one payload of the blocks it loads (any float values) -/

/-- Every load and store of the body is at offset (0, 0). -/
private theorem hz : (![0, 0] : Fin 2 → Nat) = fun _ => 0 := funext fun a => by fin_cases a <;> rfl

section Blocks
variable {F : FTy → Type} [FloatOps F]

/-- No reset: the one covering store's payload, its loads reading the whole buffers — the output block among them. -/
private theorem blk_B (c : Dev nD) (i : grid1.Coords) (a3 : Memref sig .tc .vmem S1024x512 .f32) (h3 : a3.IsWhole)
    (a4 : Memref sig .tc .vmem S4096x512 .bf16) (h4 : a4.IsWhole) (a5 : Memref sig .tc .vmem S1x4096 .f32) (h5 : a5.IsWhole)
    (a6 : Memref sig .tc .vmem S1024x4096 .f32) (h6 : a6.IsWhole) (hc : ¬cond1_0 i)
    (x0 : Vec F S1024x512 .f32) (x1 : Vec F S4096x512 .bf16) (x2 : Vec F S1x4096 .f32)
    (xo : Vec F S1024x4096 .f32) :
    out1_B_3 (F := F) c i a3 h3 a4 h4 a5 h5 a6 h6 hc x0 x1 x2 xo = k1_pay2 x0 xo x1 := by
  unfold out1_B_3
  rw [View.read_writes_eq_canon _ _ _ (cover1_B_3 c i a3 h3 a4 h4 a5 h5 a6 h6 hc x0 x1 x2 xo)]
  unfold kernelRun1_B
  dsimp only
  rw [View.canon_unit_zero hz]
  simp only [View.readAt_eq_ld, h3.read_unread, h4.read_unread, h6.read_unread,
    View.ld_unit_zero (S := S1024x512) hz, View.ld_unit_zero (S := S4096x512) hz, View.ld_unit_zero (S := S1024x4096) hz]

/-- With the reset: the later store covers the earlier; the accumulator it loads back is the earlier store's payload,
    the bias row broadcast over the rows. -/
private theorem blk_A (c : Dev nD) (i : grid1.Coords) (a3 : Memref sig .tc .vmem S1024x512 .f32) (h3 : a3.IsWhole)
    (a4 : Memref sig .tc .vmem S4096x512 .bf16) (h4 : a4.IsWhole) (a5 : Memref sig .tc .vmem S1x4096 .f32) (h5 : a5.IsWhole)
    (a6 : Memref sig .tc .vmem S1024x4096 .f32) (h6 : a6.IsWhole) (hc : cond1_0 i)
    (x0 : Vec F S1024x512 .f32) (x1 : Vec F S4096x512 .bf16) (x2 : Vec F S1x4096 .f32) :
    out1_A_3 (F := F) c i a3 h3 a4 h4 a5 h5 a6 h6 hc x0 x1 x2 = k1_pay2 x0 (k1_pay1 x2) x1 := by
  unfold out1_A_3
  rw [View.read_writes_eq_canon _ _ _ (cover1_A_3 c i a3 h3 a4 h4 a5 h5 a6 h6 hc x0 x1 x2)]
  unfold kernelRun1_A
  dsimp only
  sl_unfold_words
  rw [View.canon_cons_unit_zero (S := S1024x4096) hz, View.readCov_unit_zero (S := S1024x4096) _ hz]
  simp only [View.readAt_eq_ld, h3.read_unread, h4.read_unread, h5.read_unread,
    View.ld_unit_zero (S := S1024x512) hz, View.ld_unit_zero (S := S4096x512) hz, View.ld_unit_zero (S := S1x4096) hz]

end Blocks

/-! ## The two payloads at an index, over the extended reals -/

/-- The product's left operand index at output (r, c) and contraction position q: row r (its free axis) … -/
private theorem lhs_0 (j : S1024x4096.Idx) (q : dot_S1024x512_S4096x512_S1024x4096_1_1_0_0_n_n.contr.Idx) :
    (dot_S1024x512_S4096x512_S1024x4096_1_1_0_0_n_n.lhsIdx j q 0).val = (j 0).val := by
  unfold DotDims.lhsIdx
  rw [dif_neg (show ¬(0 : Fin S1024x512.rank) ∈ dot_S1024x512_S4096x512_S1024x4096_1_1_0_0_n_n.lhsBatch by decide),
    dif_pos (show (0 : Fin S1024x512.rank) ∈ dot_S1024x512_S4096x512_S1024x4096_1_1_0_0_n_n.lhsNonContracting by decide)]
  rfl

/-- … column q (its contracted axis). -/
private theorem lhs_1 (j : S1024x4096.Idx) (q : dot_S1024x512_S4096x512_S1024x4096_1_1_0_0_n_n.contr.Idx) :
    (dot_S1024x512_S4096x512_S1024x4096_1_1_0_0_n_n.lhsIdx j q 1).val = (q ⟨0, by decide⟩).val :=
  dot_S1024x512_S4096x512_S1024x4096_1_1_0_0_n_n.lhsIdx_val_of_single rfl j q

/-- The right operand's: row c (its free axis) … -/
private theorem rhs_0 (j : S1024x4096.Idx) (q : dot_S1024x512_S4096x512_S1024x4096_1_1_0_0_n_n.contr.Idx) :
    (dot_S1024x512_S4096x512_S1024x4096_1_1_0_0_n_n.rhsIdx j q 0).val = (j 1).val := by
  unfold DotDims.rhsIdx
  rw [dif_neg (show ¬(0 : Fin S4096x512.rank) ∈ dot_S1024x512_S4096x512_S1024x4096_1_1_0_0_n_n.rhsBatch by decide),
    dif_pos (show (0 : Fin S4096x512.rank) ∈ dot_S1024x512_S4096x512_S1024x4096_1_1_0_0_n_n.rhsNonContracting by decide)]
  rfl

/-- … column q (its contracted axis): both operands are contracted along their second axis. -/
private theorem rhs_1 (j : S1024x4096.Idx) (q : dot_S1024x512_S4096x512_S1024x4096_1_1_0_0_n_n.contr.Idx) :
    (dot_S1024x512_S4096x512_S1024x4096_1_1_0_0_n_n.rhsIdx j q 1).val = (q ⟨0, by decide⟩).val :=
  dot_S1024x512_S4096x512_S1024x4096_1_1_0_0_n_n.rhsIdx_val_of_single rfl j q

/-- The accumulating payload at (p, o): the accumulator there plus the tile's product. The shape casts are between equal
    shapes, the narrowing of x to bf16 is the identity on extended reals, and the product into the zero splat is the sum
    over its one contracted axis, re-indexed by that axis' coordinate. -/
private theorem pay2_apply (v3 : Vec Ideal S1024x512 .f32) (v6 : Vec Ideal S1024x4096 .f32) (v8 : Vec Ideal S4096x512 .bf16)
    (p : Fin 1024) (o : Fin 4096) :
    (k1_pay2 (F := Ideal) v3 v6 v8 : S1024x4096.Idx → EReal) (ix2 p o) = v6 (ix2 p o) + tileDot v3 v8 p o := by
  unfold k1_pay2
  simp only [shapeCast_self, matmul]
  rw [addf_apply, Ideal.matmul_constant_zero_apply,
    ← Equiv.sum_comp (contrEquiv1 dot_S1024x512_S4096x512_S1024x4096_1_1_0_0_n_n 512 rfl rfl).symm]
  unfold tileDot
  congr 1
  refine Finset.sum_congr rfl fun k _ => ?_
  have hk := contrEquiv1_symm_val dot_S1024x512_S4096x512_S1024x4096_1_1_0_0_n_n 512 rfl rfl k
  have el : dot_S1024x512_S4096x512_S1024x4096_1_1_0_0_n_n.lhsIdx (ix2 p o) ((contrEquiv1 dot_S1024x512_S4096x512_S1024x4096_1_1_0_0_n_n 512 rfl rfl).symm k) = ix2 p k :=
    funext fun a => Fin.ext (by
      match a with
      | ⟨0, _⟩ => exact lhs_0 _ _
      | ⟨1, _⟩ => exact (lhs_1 _ _).trans hk)
  have er : dot_S1024x512_S4096x512_S1024x4096_1_1_0_0_n_n.rhsIdx (ix2 p o) ((contrEquiv1 dot_S1024x512_S4096x512_S1024x4096_1_1_0_0_n_n 512 rfl rfl).symm k) = ix2 o k :=
    funext fun a => Fin.ext (by
      match a with
      | ⟨0, _⟩ => exact rhs_0 _ _
      | ⟨1, _⟩ => exact (rhs_1 _ _).trans hk)
  rw [el, er, truncf_apply]

/-- The reset's payload at (p, o): the bias row at o, whatever the row p. -/
private theorem pay1_apply (x2 : Vec Ideal S1x4096 .f32) (p : Fin 1024) (o : Fin 4096) :
    (k1_pay1 (F := Ideal) x2 : S1024x4096.Idx → EReal) (ix2 p o) = x2 (ix2 (0 : Fin 1) o) := by
  unfold k1_pay1
  simp only [shapeCast_self]
  exact broadcastTo_1b_ab_apply x2 broadcasts_S1x4096_S1024x4096 p o

/-! ## The two case values -/

/-- The first point of a row of points: the bias row, plus the tile's product. -/
theorem out_A (c : Dev nD) (i : grid1.Coords) (a3 : Memref sig .tc .vmem S1024x512 .f32) (h3 : a3.IsWhole)
    (a4 : Memref sig .tc .vmem S4096x512 .bf16) (h4 : a4.IsWhole) (a5 : Memref sig .tc .vmem S1x4096 .f32) (h5 : a5.IsWhole)
    (a6 : Memref sig .tc .vmem S1024x4096 .f32) (h6 : a6.IsWhole) (hc : cond1_0 i)
    (x0 : Vec Ideal S1024x512 .f32) (x1 : Vec Ideal S4096x512 .bf16) (x2 : Vec Ideal S1x4096 .f32) (p : Fin 1024) (o : Fin 4096) :
    (out1_A_3 (F := Ideal) c i a3 h3 a4 h4 a5 h5 a6 h6 hc x0 x1 x2 : S1024x4096.Idx → EReal) (ix2 p o)
      = x2 (ix2 (0 : Fin 1) o) + tileDot x0 x1 p o := by
  rw [blk_A, pay2_apply, pay1_apply]

/-- Every other point: what the block held, plus the tile's product. -/
theorem out_B (c : Dev nD) (i : grid1.Coords) (a3 : Memref sig .tc .vmem S1024x512 .f32) (h3 : a3.IsWhole)
    (a4 : Memref sig .tc .vmem S4096x512 .bf16) (h4 : a4.IsWhole) (a5 : Memref sig .tc .vmem S1x4096 .f32) (h5 : a5.IsWhole)
    (a6 : Memref sig .tc .vmem S1024x4096 .f32) (h6 : a6.IsWhole) (hc : ¬cond1_0 i)
    (x0 : Vec Ideal S1024x512 .f32) (x1 : Vec Ideal S4096x512 .bf16) (x2 : Vec Ideal S1x4096 .f32)
    (xo : Vec Ideal S1024x4096 .f32) (p : Fin 1024) (o : Fin 4096) :
    (out1_B_3 (F := Ideal) c i a3 h3 a4 h4 a5 h5 a6 h6 hc x0 x1 x2 xo : S1024x4096.Idx → EReal) (ix2 p o)
      = xo (ix2 p o) + tileDot x0 x1 p o := by
  rw [blk_B, pay2_apply]

end Cert.KernelIdeal.Matmul

end
-- ==== Proof.MatmulArr.lean ====
/-
  Region 1's output array. Its 64 points run over 8 row tiles of 1024 rows and, innermost, 8 contraction tiles of 512
  columns; the output block of a row tile stays in place through its 8 points and is written back after the last.
  After point `8 i + k` the block holds, at (p, o), the bias `o` plus the first `k + 1` tile products of row
  `1024 i + p` of `x` with row `o` of the weight, added in order; the 8 write-backs tile the array.
-/
import proofs.«407928_j46591805227029_3_alg».proof.Proof.MatmulBody
import proofs.«407928_j46591805227029_3_alg».proof.Proof.Spec

set_option maxRecDepth 16384
noncomputable section

namespace Cert.KernelIdeal.Matmul

open Cert.KernelIdeal Cert.KernelIdeal.Gen
open Idealize.ShloMosaic Idealize.ShloMosaic.TcCoe Idealize.ShloMosaic.ValueIdx
open Idealize.ShloMosaic.Pipeline (Dat)

section Blocks

variable (V : (c : Dev nD) → (b : Ref sig .tc) → Buf (Elt Ideal) ((c : Thread nD τ).loc b)) (c : Dev nD)

/-! ## The arrays and the blocks, at their literal types -/

/-- `x` as 8192 rows, the weight and the bias row, as the region finds them. -/
private abbrev xarr : Vec Ideal S8192x4096 .f32 := V c main_v3
private abbrev warr : Vec Ideal S4096x4096 .bf16 := V c main_v2
private abbrev barr : Vec Ideal S1x4096 .f32 := V c main_v4
/-- The block of each at point `t`. -/
private abbrev xblk (t : Fin cfg1.N) : Vec Ideal S1024x512 .f32 := iblk1 V c 0 t
private abbrev wblk (t : Fin cfg1.N) : Vec Ideal S4096x512 .bf16 := iblk1 V c 1 t
private abbrev bblk (t : Fin cfg1.N) : Vec Ideal S1x4096 .f32 := iblk1 V c 2 t

/-- The block indices at point `t`: row tile `t / 8` and contraction tile `t % 8` for `x`, (0, `t % 8`) for the
    weight, (0, 0) for the bias row, (`t / 8`, 0) for the output — decided over the 64 points. -/
private theorem idx_facts : ∀ t : Fin cfg1.N, win1_0.index t 0 = t.val / 8 ∧ win1_0.index t 1 = t.val % 8
    ∧ win1_1.index t 0 = 0 ∧ win1_1.index t 1 = t.val % 8
    ∧ win1_2.index t 0 = 0 ∧ win1_2.index t 1 = 0
    ∧ win1_3.index t 0 = t.val / 8 ∧ win1_3.index t 1 = 0 :=
  (by decide +kernel : ∀ t : Fin grid1.N, win1_0.index t 0 = t.val / 8 ∧ win1_0.index t 1 = t.val % 8
    ∧ win1_1.index t 0 = 0 ∧ win1_1.index t 1 = t.val % 8
    ∧ win1_2.index t 0 = 0 ∧ win1_2.index t 1 = 0
    ∧ win1_3.index t 0 = t.val / 8 ∧ win1_3.index t 1 = 0)

private theorem tN (t : Fin cfg1.N) : t.val < 64 := lt_of_lt_of_eq t.isLt (show cfg1.N = 64 from N_1)

/-- Row `p` of the row tile of point `t` is a row of `x`. -/
private theorem row_lt (t : Fin cfg1.N) (p : Fin 1024) : 1024 * (t.val / 8) + p.val < 8192 := by
  have := tN t; have := p.isLt; omega

/-- `x`'s block at point `t` reads row `1024 (t / 8) + p`, column `512 (t % 8) + kk`. -/
private theorem xblk_apply (t : Fin cfg1.N) (p : Fin 1024) (kk : Fin 512) :
    (xblk V c t : S1024x512.Idx → EReal) (ix2 p kk)
      = (xarr V c : S8192x4096.Idx → EReal) (ix2 ⟨1024 * (t.val / 8) + p.val, row_lt t p⟩
          (Cert.Mx.col ⟨t.val % 8, Nat.mod_lt _ (by decide)⟩ kk)) := by
  obtain ⟨e0, e1, -⟩ := idx_facts t
  unfold xblk iblk1
  rw [View.read_apply]
  show (V c main_v3 : S8192x4096.Idx → EReal) _ = (V c main_v3 : S8192x4096.Idx → EReal) _
  congr 1
  funext a
  apply Fin.ext
  match a with
  | ⟨0, _⟩ => show win1_0.index t 0 * 1024 + 1 * p.val = 1024 * (t.val / 8) + p.val; rw [e0]; omega
  | ⟨1, _⟩ => show win1_0.index t 1 * 512 + 1 * kk.val = 512 * (t.val % 8) + kk.val; rw [e1]; omega

/-- The weight's block at point `t` reads row `o`, column `512 (t % 8) + kk`. -/
private theorem wblk_apply (t : Fin cfg1.N) (o : Fin 4096) (kk : Fin 512) :
    (wblk V c t : S4096x512.Idx → EReal) (ix2 o kk)
      = (warr V c : S4096x4096.Idx → EReal) (ix2 o (Cert.Mx.col ⟨t.val % 8, Nat.mod_lt _ (by decide)⟩ kk)) := by
  obtain ⟨-, -, e0, e1, -⟩ := idx_facts t
  unfold wblk iblk1
  rw [View.read_apply]
  show (V c main_v2 : S4096x4096.Idx → EReal) _ = (V c main_v2 : S4096x4096.Idx → EReal) _
  congr 1
  funext a
  apply Fin.ext
  match a with
  | ⟨0, _⟩ => show win1_1.index t 0 * 4096 + 1 * o.val = o.val; rw [e0]; omega
  | ⟨1, _⟩ => show win1_1.index t 1 * 512 + 1 * kk.val = 512 * (t.val % 8) + kk.val; rw [e1]; omega

/-- The bias row's block is the bias row at every point. -/
private theorem bblk_apply (t : Fin cfg1.N) (o : Fin 4096) :
    (bblk V c t : S1x4096.Idx → EReal) (ix2 (0 : Fin 1) o)
      = (barr V c : S1x4096.Idx → EReal) (ix2 (0 : Fin 1) o) := by
  obtain ⟨-, -, -, -, e0, e1, -⟩ := idx_facts t
  unfold bblk iblk1
  rw [View.read_apply]
  show (V c main_v4 : S1x4096.Idx → EReal) _ = (V c main_v4 : S1x4096.Idx → EReal) _
  congr 1
  funext a
  apply Fin.ext
  match a with
  | ⟨0, _⟩ => show win1_2.index t 0 * 1 + 1 * 0 = 0; rw [e0]
  | ⟨1, _⟩ => show win1_2.index t 1 * 4096 + 1 * o.val = o.val; rw [e1]; omega

/-! ## The running sum -/

/-- The 512-wide partial inner product of row `R` of `x` with row `o` of the weight over contraction tile `k`. -/
private abbrev part (R : Fin 8192) (o : Fin 4096) : Fin 8 → EReal := fun k =>
  ∑ kk : Fin 512, (xarr V c : S8192x4096.Idx → EReal) (ix2 R (Cert.Mx.col k kk)) * (warr V c : S4096x4096.Idx → EReal) (ix2 o (Cert.Mx.col k kk))

/-- The tile's product at point `t` is the partial inner product of the point's row and contraction tiles. -/
private theorem tileDot_eq (t : Fin cfg1.N) (p : Fin 1024) (o : Fin 4096) (R : Fin 8192) (hR : R.val = 1024 * (t.val / 8) + p.val)
    (k : Fin 8) (hk : k.val = t.val % 8) :
    tileDot (xblk V c t) (wblk V c t) p o = part V c R o k := by
  obtain rfl : R = ⟨1024 * (t.val / 8) + p.val, row_lt t p⟩ := Fin.ext hR
  obtain rfl : k = ⟨t.val % 8, Nat.mod_lt _ (by decide)⟩ := Fin.ext hk
  unfold tileDot
  refine Finset.sum_congr rfl fun kk _ => ?_
  rw [xblk_apply V c t p kk, wblk_apply V c t o kk]

/-- The running sum at its first step, -/
private theorem acc_of_eq_zero (b : EReal) (q : Fin 8 → EReal) (k : ℕ) (hk : k < 8) (h0 : k = 0) :
    Cert.Mx.acc b q k hk = b + q ⟨k, hk⟩ := by
  subst h0; rfl

/-- and at a later one. -/
private theorem acc_of_ne_zero (b : EReal) (q : Fin 8 → EReal) (k : ℕ) (hk : k < 8) (h0 : k ≠ 0) (k' : ℕ) (hk' : k' < 8) (e : k' = k - 1) :
    Cert.Mx.acc b q k hk = Cert.Mx.acc b q k' hk' + q ⟨k, hk⟩ := by
  subst e
  cases k with
  | zero => exact absurd rfl h0
  | succ k => rfl

/-- THE INVARIANT: after point `n` the output block holds, at (p, o), the bias `o` plus the first `n % 8 + 1` partial
    inner products of row `1024 (n / 8) + p` with weight row `o`, added in order — by induction on the point: at
    `n % 8 = 0` the block is reset to the bias and the first product added, elsewhere the product of tile `n % 8` is
    added to what point `n - 1`, of the same row tile, left. -/
private theorem outsAt_eq (n : ℕ) : ∀ (h : n < cfg1.N) (p : Fin 1024) (o : Fin 4096) (R : Fin 8192) (hR : R.val = 1024 * (n / 8) + p.val)
    (k : ℕ) (hk : k < 8) (hkn : k = n % 8),
    (outsAt1 V c n h : S1024x4096.Idx → EReal) (ix2 p o)
      = Cert.Mx.acc ((barr V c : S1x4096.Idx → EReal) (ix2 (0 : Fin 1) o)) (part V c R o) k hk := by
  induction n using Nat.strong_induction_on with
  | _ n ih =>
    intro h p o R hR k hk hkn
    have hN : n < 64 := lt_of_lt_of_eq h (show cfg1.N = 64 from N_1)
    by_cases h0 : n % 8 = 0
    · rw [outsAt1_A V c ⟨n, h⟩ h0]
      refine (out_A c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
        (ms1_3 ⟨n, h⟩) (hs1_3 ⟨n, h⟩) ((hcond1_0 ⟨n, h⟩).mpr h0) (xblk V c ⟨n, h⟩) (wblk V c ⟨n, h⟩) (bblk V c ⟨n, h⟩) p o).trans ?_
      rw [bblk_apply V c ⟨n, h⟩ o, tileDot_eq V c ⟨n, h⟩ p o R hR ⟨k, hk⟩ hkn, acc_of_eq_zero _ _ k hk (by omega)]
    · rw [outsAt1_B V c ⟨n, h⟩ h0]
      refine (out_B c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
        (ms1_3 ⟨n, h⟩) (hs1_3 ⟨n, h⟩) (fun hh => h0 ((hcond1_0 ⟨n, h⟩).mp hh)) (xblk V c ⟨n, h⟩) (wblk V c ⟨n, h⟩) (bblk V c ⟨n, h⟩)
        (outsAt1 V c (n - 1) (Nat.lt_of_le_of_lt (Nat.sub_le _ _) h)) p o).trans ?_
      rw [tileDot_eq V c ⟨n, h⟩ p o R hR ⟨k, hk⟩ hkn,
        ih (n - 1) (by omega) (Nat.lt_of_le_of_lt (Nat.sub_le _ _) h) p o R (by rw [hR]; congr 2; omega) (k - 1) (by omega) (by omega),
        acc_of_ne_zero _ _ k hk (by omega) (k - 1) (by omega) rfl]

/-! ## The write-backs -/

/-- The output the region leaves, as one function of the arrays it finds. -/
private abbrev outArr : S8192x4096.Idx → EReal := Cert.Mx.Out2 (xarr V c) (warr V c) (barr V c)

/-- After the last point of a row of points the block holds the output's rows of that row tile. -/
private theorem last_apply (t : Fin cfg1.N) (h7 : t.val % 8 = 7) (p : Fin 1024) (o : Fin 4096) :
    (outsAt1 V c t.val t.isLt : S1024x4096.Idx → EReal) (ix2 p o)
      = outArr V c (ix2 ⟨1024 * (t.val / 8) + p.val, row_lt t p⟩ o) :=
  outsAt_eq V c t.val t.isLt p o ⟨1024 * (t.val / 8) + p.val, row_lt t p⟩ rfl 7 (by decide) h7.symm

/-- What a write-back writes is the output read through the point's block: the block sits at rows
    `1024 (t / 8) + ·`, all 4096 columns. -/
private theorem flushed_eq (t : Fin cfg1.N) (hf : (cfg1.win 3).flush t = true) :
    (dat1 V c).flushed 3 t = ((cfg1.win 3).blk t).view.read (Elt Ideal) (outArr V c) := by
  have h7 : t.val % 8 = 7 := (flush1_3 t).mp hf
  obtain ⟨-, -, -, -, -, -, e0, e1⟩ := idx_facts t
  show (cfg1.win 3).cut (grid1.coords t) ((dat1 V c).after 3 t) = _
  rw [after1_3]
  funext j
  rw [View.read_apply]
  have hj0 : (j 0).val < 1024 := (j 0).isLt
  have hj1 : (j 1).val < 4096 := (j 1).isLt
  show (outsAt1 V c t.val t.isLt : S1024x4096.Idx → EReal) ((cfg1.win 3).xinj (grid1.coords t) j)
    = outArr V c (((cfg1.win 3).blk t).view.emb j)
  have hx : ((cfg1.win 3).xinj (grid1.coords t) j : S1024x4096.Idx) = ix2 ⟨(j 0).val, hj0⟩ ⟨(j 1).val, hj1⟩ := by
    funext a
    match a with
    | ⟨0, _⟩ => rfl
    | ⟨1, _⟩ => rfl
  have he : (((cfg1.win 3).blk t).view.emb j : S8192x4096.Idx)
      = ix2 ⟨1024 * (t.val / 8) + (j 0).val, row_lt t ⟨(j 0).val, hj0⟩⟩ ⟨(j 1).val, hj1⟩ := by
    funext a
    apply Fin.ext
    match a with
    | ⟨0, _⟩ => show win1_3.index t 0 * 1024 + 1 * (j 0).val = 1024 * (t.val / 8) + (j 0).val; rw [e0]; omega
    | ⟨1, _⟩ => show win1_3.index t 1 * 4096 + 1 * (j 1).val = (j 1).val; rw [e1]; omega
  exact (congrArg (outsAt1 V c t.val t.isLt : S1024x4096.Idx → EReal) hx).trans
    ((last_apply V c t h7 ⟨(j 0).val, hj0⟩ ⟨(j 1).val, hj1⟩).trans (congrArg (outArr V c) he.symm))

end Blocks

/-- Row `R` of the output is written back after the last point of its row tile, `8 (R / 1024) + 7`: the write-backs
    tile the array. -/
private theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 64 := N_1
  obtain ⟨t, ht⟩ : ∃ t : Fin cfg1.N, t.val = 8 * ((i 0).val / 1024) + 7 := ⟨⟨8 * ((i 0).val / 1024) + 7, by rw [hN]; omega⟩, rfl⟩
  obtain ⟨-, -, -, -, -, -, e0, e1⟩ := idx_facts t
  refine ⟨t, (flush1_3 t).mpr (by omega), ?_⟩
  show i ∈ ((View.whole main_v5).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [e0]; omega
  | ⟨1, _⟩ =>
    show win1_3.index t 1 * 4096 ≤ (i 1).val ∧ (i 1).val < win1_3.index t 1 * 4096 + 4096
    rw [e1]; omega

/-- Entered with `x` as 8192 rows, the weight and the bias row, region 1 leaves the kernel-ordered output in its
    output array. -/
theorem arr_eq (V : (c : Dev nD) → (b : Ref sig .tc) → Buf (Elt Ideal) ((c : Thread nD τ).loc b)) (c : Dev nD) :
    ((dat1 (F := Ideal) V c).arrAt 3 cfg1.N : S8192x4096.Idx → EReal)
      = Cert.Mx.Out2 (V c main_v3 : Vec Ideal S8192x4096 .f32) (V c main_v2 : Vec Ideal S4096x4096 .bf16) (V c main_v4 : Vec Ideal S1x4096 .f32) :=
  (dat1 (F := Ideal) V c).arrAt_eq_of_cover 3 (outArr V c) (flushed_eq V c) cover

end Cert.KernelIdeal.Matmul

end
-- ==== Proof.SpecLaws.lean ====
/-
  The laws that join the two orders of the output. Addition of extended reals is commutative and associative, so the
  bias added first and eight partial sums added in order is the whole sum plus the bias; the 4096 columns are the 8
  tiles of 512 columns; and the rows (b, s) of `x` re-laid as rows `b * 2048 + s` are the same rows.
-/
import proofs.«407928_j46591805227029_3_alg».proof.Proof.Spec
import Idealize.ShloMosaic.Lib.Pipeline.Value
import Idealize.ShloMosaic.Lib.ValueIdx
import Mathlib.Tactic.Abel
import Mathlib.Algebra.BigOperators.Fin
import Mathlib.Logic.Equiv.Fin.Basic

noncomputable section

namespace Cert.Mx

open Idealize.ShloMosaic Idealize.ShloMosaic.ValueIdx

/-- The bias first and the parts in order is the parts' sum plus the bias. -/
theorem acc_eq_sum (b0 : EReal) (p : Fin 8 → EReal) : acc b0 p 7 (by decide) = (∑ k : Fin 8, p k) + b0 := by
  have h : acc b0 p 7 (by decide)
      = b0 + p 0 + p 1 + p 2 + p 3 + p 4 + p 5 + p 6 + p 7 := rfl
  rw [h, Fin.sum_univ_eight]
  abel

/-- The 4096 columns are the 8 tiles of 512. -/
theorem sum_tiles (f : Fin 4096 → EReal) : (∑ k : Fin 8, ∑ kk : Fin 512, f (col k kk)) = ∑ i : Fin 4096, f i := by
  rw [← Fintype.sum_prod_type' (fun k kk => f (col k kk))]
  refine Fintype.sum_equiv (finProdFinEquiv (m := 8) (n := 512)) _ _ (fun x => congrArg f (Fin.ext ?_))
  show 512 * x.1.val + x.2.val = x.2.val + 512 * x.1.val
  omega

/-- Row `b * 2048 + s` of the re-laid `x` is row (b, s) of `x`. -/
private theorem castX (x : SX.Idx → EReal) (hx : SX.ShapeCasts SX2) (bb : Fin 4) (ss : Fin 2048) (c : Fin 4096)
    (m : Fin 8192) (hm : m.val = bb.val * 2048 + ss.val) :
    shapeCast SX2 x hx (ix2 m c) = x (ix3 bb ss c) := by
  apply shapeCast_apply
  rw [Shape.rowMajor_val_three, Shape.rowMajor_val_two]
  show (bb.val * 2048 + ss.val) * 4096 + c.val = m.val * 4096 + c.val
  rw [hm]

/-- Entry (0, o) of the re-laid bias is entry `o` of the bias. -/
private theorem castB (b : SB.Idx → EReal) (hb : SB.ShapeCasts SB2) (o : Fin 4096) :
    shapeCast SB2 b hb (ix2 (0 : Fin 1) o) = b (ix1 o) := by
  apply shapeCast_apply
  rw [Shape.rowMajor_val_one, Shape.rowMajor_val_two]
  show o.val = 0 * 4096 + o.val
  omega

/-- The kernel-ordered output over the re-laid rows, re-laid back, IS the reference-ordered output. -/
theorem out2_eq (x : SX.Idx → EReal) (w : SW.Idx → EReal) (b : SB.Idx → EReal)
    (hx : SX.ShapeCasts SX2) (hb : SB.ShapeCasts SB2) (ho : SX2.ShapeCasts SX) :
    shapeCast SX (Out2 (shapeCast SX2 x hx) w (shapeCast SB2 b hb)) ho = Out x w b := by
  funext j
  obtain ⟨bb, ss, o, rfl⟩ : ∃ (bb : Fin 4) (ss : Fin 2048) (o : Fin 4096), j = ix3 bb ss o :=
    ⟨j 0, j 1, j 2, eq_ix3 j⟩
  have hbb := bb.isLt
  have hss := ss.isLt
  have hm : bb.val * 2048 + ss.val < 8192 := by omega
  rw [shapeCast_apply _ ho (ix3 bb ss o) (ix2 ⟨bb.val * 2048 + ss.val, hm⟩ o) (by
    rw [Shape.rowMajor_val_three, Shape.rowMajor_val_two]; rfl)]
  show acc (shapeCast SB2 b hb (ix2 (0 : Fin 1) o))
      (fun k => ∑ kk : Fin 512, shapeCast SX2 x hx (ix2 ⟨bb.val * 2048 + ss.val, hm⟩ (col k kk)) * w (ix2 o (col k kk)))
      7 (by decide)
    = (∑ i : Fin 4096, x (ix3 bb ss i) * w (ix2 o i)) + b (ix1 o)
  have hX : ∀ c : Fin 4096, shapeCast SX2 x hx (ix2 ⟨bb.val * 2048 + ss.val, hm⟩ c) = x (ix3 bb ss c) :=
    fun c => castX x hx bb ss c _ rfl
  simp only [hX, castB]
  rw [acc_eq_sum, sum_tiles (fun i => x (ix3 bb ss i) * w (ix2 o i))]

end Cert.Mx

end
-- ==== Proof.KernelValue.lean ====
/-
  The kernel's value: read back through the last reshape, region 1's output, the reshapes between the regions,
  region 0's output and the first reshapes, the result array ends at the reference-ordered output of `x`, the
  dequantized weight of the packed words and the scales, and the bias.
-/
import proofs.«407928_j46591805227029_3_alg».proof.Proof.KernelRun
import proofs.«407928_j46591805227029_3_alg».proof.Proof.Glue
import proofs.«407928_j46591805227029_3_alg».proof.Proof.DequantArr
import proofs.«407928_j46591805227029_3_alg».proof.Proof.MatmulArr
import proofs.«407928_j46591805227029_3_alg».proof.Proof.SpecLaws

noncomputable section

namespace Cert.KernelIdeal.ValueRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array at the last boundary. -/
theorem value (c : Dev nD) :
    (W5 m ρ c (Proc.devRef .tc main_v6) : S4x2048x4096.Idx → EReal)
      = Cert.Mx.Out (m ((c : Thread nD τ).loc main_arg0))
          (Cert.Mx.W (m ((c : Thread nD τ).loc main_arg1)) (m ((c : Thread nD τ).loc main_arg2)))
          (m ((c : Thread nD τ).loc main_arg3)) := by
  rw [Cert.KernelIdeal.Glue.W5_v6, Cert.KernelIdeal.Matmul.arr_eq, Cert.KernelIdeal.Glue.V3_v3, Cert.KernelIdeal.Glue.V3_v4,
    Cert.KernelIdeal.Glue.V3_v2,
    Cert.KernelIdeal.Dequant.arr_eq (V1 m ρ) c _ _ (Cert.KernelIdeal.Glue.V1_v0 m ρ c) (Cert.KernelIdeal.Glue.V1_v1 m ρ c)]
  exact Cert.Mx.out2_eq _ _ _ _ _ _

/-- The kernel's run with its result named. -/
theorem run : θ_run defs (onTc (τ := τ) (main (F := Ideal))) ⟨m, fun _ => 0, ρ⟩ (fun r => ∀ c : Dev nD,
      r.2.mem ((c.tc : Thread nD τ).loc main_v6)
        = Cert.Mx.Out (m ((c.tc : Thread nD τ).loc main_arg0))
            (Cert.Mx.W (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (value m ρ c), (h c).2⟩) (run_value (F := Ideal) m ρ)

end Cert.KernelIdeal.ValueRun

end
-- ==== Proof.RefTerm.lean ====
/-
  The reference's @main as ONE term of its arguments: the operations composed in program order, under the names of
  what they compute — the codes unpacked two to a word, each code's sign and magnitude, the dequantized weight, the
  inner products and the bias.
-/
import proofs.«407928_j46591805227029_3_alg».proof.ReferenceIdeal

noncomputable section

namespace Cert.ReferenceIdeal.RefValue

open Cert.ReferenceIdeal Cert.ReferenceIdeal.Facts₀ Cert.ReferenceIdeal.Facts
open Idealize.ShloMosaic

variable {F : FTy → Type} [FloatOps F] [Cert.ReferenceIdeal.Facts]

/-- The table of magnitudes the program holds as a constant. -/
def table : FVec F S8 .f32 := fun i => FloatOps.ofBits .f32 (lit0 (S8.rowMajor i))

/-- The codes, two to a word, high code first: 16777216 of them. -/
def codes (q : IVec S8388608 32) : IVec S16777216 32 :=
  shapeCast S16777216
    (concatenate S8388608x2 1
      [⟨S8388608x1, broadcastInDim S8388608x1 ![0] bcast_S8388608_S8388608x1_0
          (andi (Host.shrsi q (broadcastInDim S8388608 ![] bcast_S_S8388608 (constantI S_ 32 4#32)))
            (broadcastInDim S8388608 ![] bcast_S_S8388608 (constantI S_ 32 15#32)))⟩,
       ⟨S8388608x1, broadcastInDim S8388608x1 ![0] bcast_S8388608_S8388608x1_0
          (andi q (broadcastInDim S8388608 ![] bcast_S_S8388608 (constantI S_ 32 15#32)))⟩]
      concatenates_S8388608x1_S8388608x1_S8388608x2_d1)
    shapeCasts_S8388608x2_S16777216

/-- Each code's sign factor. -/
def signs (n : IVec S16777216 32) : FVec F S16777216 .f32 :=
  select
    (cmpi .eq
      (andi (Host.shrsi n (broadcastInDim S16777216 ![] bcast_S_S16777216 (constantI S_ 32 3#32)))
        (broadcastInDim S16777216 ![] bcast_S_S16777216 (constantI S_ 32 1#32)))
      (broadcastInDim S16777216 ![] bcast_S_S16777216 (constantI S_ 32 1#32)))
    (broadcastInDim S16777216 ![] bcast_S_S16777216 (constant S_ .f32 0xBF800000#32))
    (broadcastInDim S16777216 ![] bcast_S_S16777216 (constant S_ .f32 0x3F800000#32))

/-- The low three bits of each code, as jnp normalizes an index: eight added where negative. -/
def slots (n : IVec S16777216 32) : IVec S16777216 32 :=
  select
    (cmpi .slt (andi n (broadcastInDim S16777216 ![] bcast_S_S16777216 (constantI S_ 32 7#32)))
      (broadcastInDim S16777216 ![] bcast_S_S16777216 (constantI S_ 32 0#32)))
    (addi (andi n (broadcastInDim S16777216 ![] bcast_S_S16777216 (constantI S_ 32 7#32)))
      (broadcastInDim S16777216 ![] bcast_S_S16777216 (constantI S_ 32 8#32)))
    (andi n (broadcastInDim S16777216 ![] bcast_S_S16777216 (constantI S_ 32 7#32)))

/-- Each code's magnitude: the table read at its slot. -/
def mags (n : IVec S16777216 32) : FVec F S16777216 .f32 :=
  Host.gather gather_S8_S16777216x1_S16777216_n_0_n_n_0_1_1 (table (F := F))
    (broadcastInDim S16777216x1 ![0] bcast_S16777216_S16777216x1_0 (slots n))

/-- THE REFERENCE'S WEIGHT: magnitude times sign, scaled by its 32-entry group's scale, as 4096 rows of 4096. -/
def refW (q : IVec S8388608 32) (s : FVec F S524288 .f32) : FVec F S4096x4096 .f32 :=
  shapeCast S4096x4096
    (mulf
      (shapeCast S524288x32 (mulf (mags (codes q)) (id (signs (codes q)))) shapeCasts_S16777216_S524288x32)
      (broadcastInDim S524288x32 ![0, 1] bcast_S524288x1_S524288x32_0_1
        (broadcastInDim S524288x1 ![0] bcast_S524288_S524288x1_0 s)))
    shapeCasts_S524288x32_S4096x4096

/-- THE REFERENCE'S OUTPUT from a weight: the inner products along the last axis of `x` and of the weight's rows,
    plus the bias along the last axis. -/
def refOut (x : FVec F S4x2048x4096 .f32) (w : FVec F S4096x4096 .f32) (b : FVec F S4096 .f32) : FVec F S4x2048x4096 .f32 :=
  addf (Host.dotGeneral dot_S4x2048x4096_S4096x4096_S4x2048x4096_2_1_01_0_n_n none x w)
    (broadcastInDim S4x2048x4096 ![0, 1, 2] bcast_S1x1x4096_S4x2048x4096_0_1_2
      (broadcastInDim S1x1x4096 ![2] bcast_S4096_S1x1x4096_2 b))

/-- The reference's result as one term of its arguments. -/
def refTerm (x : FVec F S4x2048x4096 .f32) (q : IVec S8388608 32) (s : FVec F S524288 .f32) (b : FVec F S4096 .f32) :
    FVec F S4x2048x4096 .f32 := refOut x (refW q s) b

end Cert.ReferenceIdeal.RefValue

end
-- ==== Proof.RefRun.lean ====
/-
  The reference's run: @main is a straight line of host operations (the call of the outlined select's three operations
  listed in place), so every weakly fair execution ends with the result array at the composed term of the arguments
  and the arguments as launched.
-/
import proofs.«407928_j46591805227029_3_alg».proof.Proof.Gen.ReferenceIdeal
import proofs.«407928_j46591805227029_3_alg».proof.Proof.RefTerm
import Idealize.ShloMosaic.Lib.StableHlo.Run

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]

/-- @main's operations in program order, the outlined select's two broadcasts and its select listed where it is
    called, over the buffers of that call. -/
abbrev ops : List (HloOp τ sig (Elt F)) :=
  [ StableHlo.nullary main_cst (fun i => FloatOps.ofBits .f32 (lit0 (S8.rowMajor i))),
    StableHlo.nullary main_c (constantI S_ 32 4#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 15#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (andi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 15#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_arg1 main_v4 main_v5 (andi : (⟨S8388608, .i32⟩ : BufTy).Contents (Elt F) → (⟨S8388608, .i32⟩ : BufTy).Contents (Elt F) → (⟨S8388608, .i32⟩ : BufTy).Contents (Elt F)),
    StableHlo.unary main_v3 main_v6 (broadcastInDim S8388608x1 ![0] bcast_S8388608_S8388608x1_0 : (⟨S8388608, .i32⟩ : BufTy).Contents (Elt F) → (⟨S8388608x1, .i32⟩ : BufTy).Contents (Elt F)),
    StableHlo.unary main_v5 main_v7 (broadcastInDim S8388608x1 ![0] bcast_S8388608_S8388608x1_0 : (⟨S8388608, .i32⟩ : BufTy).Contents (Elt F) → (⟨S8388608x1, .i32⟩ : BufTy).Contents (Elt F)),
    StableHlo.binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    StableHlo.reshape main_v8 main_v9 rfl shapeCasts_S8388608x2_S16777216,
    StableHlo.nullary main_c_2 (constantI S_ 32 3#32),
    StableHlo.unary main_c_2 main_v10 (broadcastInDim S16777216 ![] bcast_S_S16777216 : (⟨S_, .i32⟩ : BufTy).Contents (Elt F) → (⟨S16777216, .i32⟩ : BufTy).Contents (Elt F)),
    StableHlo.binary main_v9 main_v10 main_v11 (Host.shrsi : (⟨S16777216, .i32⟩ : BufTy).Contents (Elt F) → (⟨S16777216, .i32⟩ : BufTy).Contents (Elt F) → (⟨S16777216, .i32⟩ : BufTy).Contents (Elt F)),
    StableHlo.nullary main_c_3 (constantI S_ 32 1#32),
    StableHlo.unary main_c_3 main_v12 (broadcastInDim S16777216 ![] bcast_S_S16777216 : (⟨S_, .i32⟩ : BufTy).Contents (Elt F) → (⟨S16777216, .i32⟩ : BufTy).Contents (Elt F)),
    StableHlo.binary main_v11 main_v12 main_v13 (andi : (⟨S16777216, .i32⟩ : BufTy).Contents (Elt F) → (⟨S16777216, .i32⟩ : BufTy).Contents (Elt F) → (⟨S16777216, .i32⟩ : BufTy).Contents (Elt F)),
    StableHlo.nullary main_c_4 (constantI S_ 32 1#32),
    StableHlo.unary main_c_4 main_v14 (broadcastInDim S16777216 ![] bcast_S_S16777216 : (⟨S_, .i32⟩ : BufTy).Contents (Elt F) → (⟨S16777216, .i32⟩ : BufTy).Contents (Elt F)),
    StableHlo.binary main_v13 main_v14 main_v15 (cmpi .eq : (⟨S16777216, .i32⟩ : BufTy).Contents (Elt F) → (⟨S16777216, .i32⟩ : BufTy).Contents (Elt F) → (⟨S16777216, .i1⟩ : BufTy).Contents (Elt F)),
    StableHlo.nullary main_cst_5 (constant S_ .f32 0xBF800000#32),
    StableHlo.nullary main_cst_6 (constant S_ .f32 0x3F800000#32),
    StableHlo.TRef.unary (.of main_cst_5 : StableHlo.TRef sig ⟨S_, .f32⟩) main_call0.v0 (broadcastInDim S16777216 ![] bcast_S_S16777216),
    StableHlo.TRef.unary (.of main_cst_6 : StableHlo.TRef sig ⟨S_, .f32⟩) main_call0.v1 (broadcastInDim S16777216 ![] bcast_S_S16777216),
    StableHlo.TRef.ternary (.of main_v15 : StableHlo.TRef sig ⟨S16777216, .i1⟩) main_call0.v0 main_call0.v1 main_call0.v2 select,
    StableHlo.unary main_v16 main_v17 (id : (⟨S16777216, .f32⟩ : BufTy).Contents (Elt F) → (⟨S16777216, .f32⟩ : BufTy).Contents (Elt F)),
    StableHlo.nullary main_c_7 (constantI S_ 32 7#32),
    StableHlo.unary main_c_7 main_v18 (broadcastInDim S16777216 ![] bcast_S_S16777216 : (⟨S_, .i32⟩ : BufTy).Contents (Elt F) → (⟨S16777216, .i32⟩ : BufTy).Contents (Elt F)),
    StableHlo.binary main_v9 main_v18 main_v19 (andi : (⟨S16777216, .i32⟩ : BufTy).Contents (Elt F) → (⟨S16777216, .i32⟩ : BufTy).Contents (Elt F) → (⟨S16777216, .i32⟩ : BufTy).Contents (Elt F)),
    StableHlo.nullary main_c_8 (constantI S_ 32 0#32),
    StableHlo.unary main_c_8 main_v20 (broadcastInDim S16777216 ![] bcast_S_S16777216 : (⟨S_, .i32⟩ : BufTy).Contents (Elt F) → (⟨S16777216, .i32⟩ : BufTy).Contents (Elt F)),
    StableHlo.binary main_v19 main_v20 main_v21 (cmpi .slt : (⟨S16777216, .i32⟩ : BufTy).Contents (Elt F) → (⟨S16777216, .i32⟩ : BufTy).Contents (Elt F) → (⟨S16777216, .i1⟩ : BufTy).Contents (Elt F)),
    StableHlo.nullary main_c_9 (constantI S_ 32 8#32),
    StableHlo.unary main_c_9 main_v22 (broadcastInDim S16777216 ![] bcast_S_S16777216 : (⟨S_, .i32⟩ : BufTy).Contents (Elt F) → (⟨S16777216, .i32⟩ : BufTy).Contents (Elt F)),
    StableHlo.binary main_v19 main_v22 main_v23 (addi : (⟨S16777216, .i32⟩ : BufTy).Contents (Elt F) → (⟨S16777216, .i32⟩ : BufTy).Contents (Elt F) → (⟨S16777216, .i32⟩ : BufTy).Contents (Elt F)),
    StableHlo.ternary main_v21 main_v23 main_v19 main_v24 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v24 main_v25 (broadcastInDim S16777216x1 ![0] bcast_S16777216_S16777216x1_0 : (⟨S16777216, .i32⟩ : BufTy).Contents (Elt F) → (⟨S16777216x1, .i32⟩ : BufTy).Contents (Elt F)),
    StableHlo.binary main_cst main_v25 main_v26 ((fun x i => Host.gather gather_S8_S16777216x1_S16777216_n_0_n_n_0_1_1 x i) : (⟨S8, .f32⟩ : BufTy).Contents (Elt F) → (⟨S16777216x1, .i32⟩ : BufTy).Contents (Elt F) → (⟨S16777216, .f32⟩ : BufTy).Contents (Elt F)),
    StableHlo.binary main_v26 main_v17 main_v27 (mulf : (⟨S16777216, .f32⟩ : BufTy).Contents (Elt F) → (⟨S16777216, .f32⟩ : BufTy).Contents (Elt F) → (⟨S16777216, .f32⟩ : BufTy).Contents (Elt F)),
    StableHlo.reshape main_v27 main_v28 rfl shapeCasts_S16777216_S524288x32,
    StableHlo.unary main_arg2 main_v29 (broadcastInDim S524288x1 ![0] bcast_S524288_S524288x1_0 : (⟨S524288, .f32⟩ : BufTy).Contents (Elt F) → (⟨S524288x1, .f32⟩ : BufTy).Contents (Elt F)),
    StableHlo.unary main_v29 main_v30 (broadcastInDim S524288x32 ![0, 1] bcast_S524288x1_S524288x32_0_1 : (⟨S524288x1, .f32⟩ : BufTy).Contents (Elt F) → (⟨S524288x32, .f32⟩ : BufTy).Contents (Elt F)),
    StableHlo.binary main_v28 main_v30 main_v31 (mulf : (⟨S524288x32, .f32⟩ : BufTy).Contents (Elt F) → (⟨S524288x32, .f32⟩ : BufTy).Contents (Elt F) → (⟨S524288x32, .f32⟩ : BufTy).Contents (Elt F)),
    StableHlo.reshape main_v31 main_v32 rfl shapeCasts_S524288x32_S4096x4096,
    StableHlo.binary main_arg0 main_v32 main_v33 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg3 main_v34 (broadcastInDim S1x1x4096 ![2] bcast_S4096_S1x1x4096_2 : (⟨S4096, .f32⟩ : BufTy).Contents (Elt F) → (⟨S1x1x4096, .f32⟩ : BufTy).Contents (Elt F)),
    StableHlo.unary main_v34 main_v35 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v33 main_v35 main_v36 (addf : (⟨S4x2048x4096, .f32⟩ : BufTy).Contents (Elt F) → (⟨S4x2048x4096, .f32⟩ : BufTy).Contents (Elt F) → (⟨S4x2048x4096, .f32⟩ : BufTy).Contents (Elt F)) ]

-- one bind per operation is re-associated: the rewriting recurses once per statement
set_option maxRecDepth 1024 in
/-- @main is that straight line: the outlined function unfolded at its call, sequencing re-associated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    reshape_bufs_sub .., unary_bufs_sub .., unary_bufs_sub .., binary_bufs_sub .., reshape_bufs_sub .., binary_bufs_sub ..,
    unary_bufs_sub .., unary_bufs_sub .., binary_bufs_sub ..⟩

/-- Every weakly fair execution of the reference's @main terminates with the result at `refTerm` of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = refTerm (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v36).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.RefW.lean ====
/-
  The reference's weight, entry by entry. Flat position `f = r * 4096 + c` of the 16777216 codes is the high code of
  word `f / 2` at even `f` and the low code at odd `f`; its magnitude is the table read at the code's low three
  bits (never negative, so jnp's index normalization changes nothing, and always below 8, so the gather's clamp
  changes nothing), which is the chain of selects on those bits; its group's scale is scale `f / 32`. With
  `f / 2 = r * 2048 + c / 2`, `f % 2 = c % 2` and `f / 32 = r * 128 + c / 32` this is the dequantized weight.
-/
import proofs.«407928_j46591805227029_3_alg».proof.Proof.Gen.ReferenceIdeal
import proofs.«407928_j46591805227029_3_alg».proof.Proof.RefTerm
import proofs.«407928_j46591805227029_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Cert.ReferenceIdeal.Gen
open Idealize.ShloMosaic Idealize.ShloMosaic.ValueIdx

/-- At the literal amounts the reference shifts by, the host's arithmetic right shift is the vector unit's. -/
private theorem shrsi_host_lit4 (x : BitVec 32) : IntOp.shrsi .host x 4#32 = IntOp.shrsi .vector x 4#32 := by
  unfold IntOp.shrsi; rfl
private theorem shrsi_host_lit3 (x : BitVec 32) : IntOp.shrsi .host x 3#32 = IntOp.shrsi .vector x 3#32 := by
  unfold IntOp.shrsi; rfl

/-- Code `f`: the high code of word `f / 2` at even `f`, the low code at odd `f`. -/
private theorem codes_apply (q : IVec S8388608 32) (f : Fin 16777216) :
    codes q (ix1 f) = if f.val % 2 = 0
      then Cert.Mx.hi (q (ix1 ⟨f.val / 2, by have := f.isLt; omega⟩))
      else Cert.Mx.lo (q (ix1 ⟨f.val / 2, by have := f.isLt; omega⟩)) := by
  have hf := f.isLt
  unfold codes
  rw [shapeCast_apply _ _ (ix1 f) (ix2 (⟨f.val / 2, by omega⟩ : Fin 8388608) (⟨f.val % 2, by omega⟩ : Fin 2))
    (by rw [Shape.rowMajor_val_two, Shape.rowMajor_val_one]; show f.val / 2 * 2 + f.val % 2 = f.val; omega)]
  by_cases h2 : f.val % 2 = 0
  · rw [if_pos h2]
    rw [concatenate_pair_apply_left (t := S8388608x2) (s₁ := S8388608x1) (s₂ := S8388608x1) (1 : Fin 2) _ _ _ (ix2 (⟨f.val / 2, by omega⟩ : Fin 8388608) (⟨f.val % 2, by omega⟩ : Fin 2)) rfl (ix2 (⟨f.val / 2, by omega⟩ : Fin 8388608) (0 : Fin 1))
      (fun b => match b with | ⟨0, _⟩ => rfl | ⟨1, _⟩ => by show (0 : ℕ) = f.val % 2; omega)]
    rw [broadcastInDim_apply _ _ _ _ (ix1 (⟨f.val / 2, by omega⟩ : Fin 8388608))
      (fun a => match a with | ⟨0, _⟩ => rfl)]
    show IntOp.andi (IntOp.shrsi .host (q _) 4#32) 15#32 = _
    rw [shrsi_host_lit4]; rfl
  · rw [if_neg h2]
    rw [concatenate_pair_apply_right (t := S8388608x2) (s₁ := S8388608x1) (s₂ := S8388608x1) (1 : Fin 2) _ _ _ (ix2 (⟨f.val / 2, by omega⟩ : Fin 8388608) (⟨f.val % 2, by omega⟩ : Fin 2)) rfl rfl (ix2 (⟨f.val / 2, by omega⟩ : Fin 8388608) (0 : Fin 1))
      (fun b hb => match b, hb with | ⟨0, _⟩, _ => rfl | ⟨1, _⟩, hb => absurd rfl hb)
      (by show (0 : ℕ) + 1 = f.val % 2; omega)]
    rw [broadcastInDim_apply _ _ _ _ (ix1 (⟨f.val / 2, by omega⟩ : Fin 8388608))
      (fun a => match a with | ⟨0, _⟩ => rfl)]
    rfl

/-- Each code's sign factor is the sign its bit 3 carries. -/
private theorem signs_apply (n : IVec S16777216 32) (j : S16777216.Idx) :
    signs (F := Ideal) n j = Cert.Mx.sgn (n j) := by
  show Scalar.select (IntOp.cmpi .eq (IntOp.andi (IntOp.shrsi .host (n j) 3#32) 1#32) 1#32)
    (Ideal.ofBits .f32 0xBF800000#32) (Ideal.ofBits .f32 0x3F800000#32) = _
  rw [shrsi_host_lit3]; rfl

/-- The low three bits of a word, read as a number, are below eight. -/
private theorem toNat_and7_lt (x : BitVec 32) : (IntOp.andi x 7#32).toNat < 8 := by
  unfold IntOp.andi
  rw [BitVec.toNat_and]
  exact Nat.lt_succ_of_le Nat.and_le_right

/-- The slot is the low three bits themselves: they are never negative. -/
private theorem slots_apply (n : IVec S16777216 32) (j : S16777216.Idx) :
    slots n j = IntOp.andi (n j) 7#32 := by
  show Scalar.select (IntOp.cmpi .slt (IntOp.andi (n j) 7#32) 0#32) (IntOp.addi (IntOp.andi (n j) 7#32) 8#32)
    (IntOp.andi (n j) 7#32) = _
  have hk := toNat_and7_lt (n j)
  have hn : ¬ IntOp.cmpi .slt (IntOp.andi (n j) 7#32) 0#32 = 1#1 := by
    rw [StableHlo.Predicate.slt_iff_toNat (by omega) (by decide)]
    simp
  rw [eq_zero_of_ne_one hn, select_zero]

/-- The chain of selects on a word that the specification's magnitude applies to a code's low three bits. -/
private def magChain (k : BitVec 32) : EReal :=
  Scalar.select (IntOp.cmpi .eq k 0#32) (Ideal.ofBits .f32 0x00000000#32)
  (Scalar.select (IntOp.cmpi .eq k 1#32) (Ideal.ofBits .f32 0x3F000000#32)
  (Scalar.select (IntOp.cmpi .eq k 2#32) (Ideal.ofBits .f32 0x3F800000#32)
  (Scalar.select (IntOp.cmpi .eq k 3#32) (Ideal.ofBits .f32 0x3FC00000#32)
  (Scalar.select (IntOp.cmpi .eq k 4#32) (Ideal.ofBits .f32 0x40000000#32)
  (Scalar.select (IntOp.cmpi .eq k 5#32) (Ideal.ofBits .f32 0x40400000#32)
  (Scalar.select (IntOp.cmpi .eq k 6#32) (Ideal.ofBits .f32 0x40800000#32)
    (Ideal.ofBits .f32 0x40C00000#32)))))))

private theorem mag_eq_magChain (n : BitVec 32) : Cert.Mx.mag n = magChain (IntOp.andi n 7#32) := rfl

/-- A select on an equality of words is the `if` on it. -/
private theorem select_cmpi_eq (a b : BitVec 32) (A B : EReal) :
    Scalar.select (IntOp.cmpi .eq a b) A B = if a = b then A else B := by
  by_cases h : a = b
  · rw [if_pos h, (StableHlo.Predicate.cmpi_eq_iff).2 h, select_one]
  · rw [if_neg h, eq_zero_of_ne_one (fun h1 => h ((StableHlo.Predicate.cmpi_eq_iff).1 h1)), select_zero]

/-- On the words 0 … 7 the chain reads the table of magnitudes. -/
private theorem magChain_ofNat (v : Fin 8) : magChain (BitVec.ofNat 32 v.val) = Ideal.ofBits .f32 (lit0 v) := by
  unfold magChain
  simp only [select_cmpi_eq]
  fin_cases v
  all_goals rfl

/-- A rank-1 index written either way. -/
private theorem ix1_eq_ofFin {m : ℕ} (p : Fin m) : ix1 p = Shape.Idx.ofFin p := Shape.Idx.eq_ofFin (ix1 p)

/-- The table of magnitudes at entry `m`. -/
private theorem table_apply (m : Fin 8) : table (F := Ideal) (Shape.Idx.ofFin m) = Ideal.ofBits .f32 (lit0 m) := by
  unfold table
  have e : S8.rowMajor (Shape.Idx.ofFin m) = m := Fin.ext (by rw [Shape.rowMajor_val_one]; rfl)
  rw [e]; rfl

/-- A word below eight is its number's word. -/
private theorem eq_ofNat_of_lt (k : BitVec 32) (hk : k.toNat < 8) : k = BitVec.ofNat 32 (⟨k.toNat, hk⟩ : Fin 8).val := by
  apply BitVec.eq_of_toNat_eq
  simp only [BitVec.toNat_ofNat]
  omega

/-- Each code's magnitude: the gather reads the table at the code's low three bits, which is the chain of selects. -/
private theorem mags_apply (n : IVec S16777216 32) (f : Fin 16777216) :
    mags (F := Ideal) n (ix1 f) = Cert.Mx.mag (n (ix1 f)) := by
  have hk := toNat_and7_lt (n (ix1 f))
  unfold mags
  rw [ix1_eq_ofFin f, StableHlo.Predicate.gather_take _ rfl rfl rfl rfl _ _ f (by decide)]
  have hidx : broadcastInDim S16777216x1 ![0] bcast_S16777216_S16777216x1_0 (slots n) (StableHlo.Predicate.ixP f)
      = IntOp.andi (n (ix1 f)) 7#32 := by
    rw [StableHlo.Predicate.bcast_col1, ← ix1_eq_ofFin, slots_apply]
  have hF : ∀ h, (⟨min (broadcastInDim S16777216x1 ![0] bcast_S16777216_S16777216x1_0 (slots n)
      (StableHlo.Predicate.ixP f)).toInt.toNat (8 - 1), h⟩ : Fin 8) = ⟨(IntOp.andi (n (ix1 f)) 7#32).toNat, hk⟩ := by
    intro h
    apply Fin.ext
    show min _ (8 - 1) = _
    rw [hidx, BitVec.toInt_eq_toNat_of_lt (by omega)]
    simp only [Int.toNat_natCast]
    omega
  rw [hF, table_apply, mag_eq_magChain, ← ix1_eq_ofFin]
  conv_rhs => rw [eq_ofNat_of_lt _ hk]
  rw [magChain_ofNat]

/-- Code `r * 4096 + c` is the code of word `r * 2048 + c / 2`: the high one at even `c`, the low one at odd `c`. -/
private theorem codes_rc (q : IVec S8388608 32) (r c : Fin 4096) (h : r.val * 4096 + c.val < 16777216) :
    codes q (ix1 (⟨r.val * 4096 + c.val, h⟩ : Fin 16777216)) = if c.val % 2 = 0
      then Cert.Mx.hi (q (Cert.Mx.qIdx r (c.val / 2) (by have := c.isLt; omega)))
      else Cert.Mx.lo (q (Cert.Mx.qIdx r (c.val / 2) (by have := c.isLt; omega))) := by
  have hr := r.isLt
  have hc := c.isLt
  rw [codes_apply]
  by_cases h2 : c.val % 2 = 0
  · rw [if_pos h2, if_pos (show (r.val * 4096 + c.val) % 2 = 0 by omega)]
    exact congrArg (fun i => Cert.Mx.hi (q i))
      (congrArg ix1 (Fin.ext (show (r.val * 4096 + c.val) / 2 = r.val * 2048 + c.val / 2 by omega)))
  · rw [if_neg h2, if_neg (show ¬ (r.val * 4096 + c.val) % 2 = 0 by omega)]
    exact congrArg (fun i => Cert.Mx.lo (q i))
      (congrArg ix1 (Fin.ext (show (r.val * 4096 + c.val) / 2 = r.val * 2048 + c.val / 2 by omega)))

/-- The reference's weight IS the dequantized weight. -/
theorem refW_eq (q : IVec S8388608 32) (s : FVec Ideal S524288 .f32) :
    (refW (F := Ideal) q s : S4096x4096.Idx → EReal) = Cert.Mx.W q s := by
  funext j
  obtain ⟨r, c, rfl⟩ : ∃ (r : Fin 4096) (c : Fin 4096), j = ix2 r c := ⟨j 0, j 1, eq_ix2 j⟩
  have hr := r.isLt
  have hc := c.isLt
  have hf : r.val * 4096 + c.val < 16777216 := by omega
  unfold refW
  rw [shapeCast_apply _ _ (ix2 r c)
    (ix2 (⟨(r.val * 4096 + c.val) / 32, by omega⟩ : Fin 524288) (⟨(r.val * 4096 + c.val) % 32, by omega⟩ : Fin 32))
    (by rw [Shape.rowMajor_val_two, Shape.rowMajor_val_two]
        show (r.val * 4096 + c.val) / 32 * 32 + (r.val * 4096 + c.val) % 32 = r.val * 4096 + c.val; omega)]
  rw [mulf_apply]
  rw [shapeCast_apply _ _ (ix2 (⟨(r.val * 4096 + c.val) / 32, by omega⟩ : Fin 524288) (⟨(r.val * 4096 + c.val) % 32, by omega⟩ : Fin 32))
    (ix1 (⟨r.val * 4096 + c.val, hf⟩ : Fin 16777216))
    (by rw [Shape.rowMajor_val_one, Shape.rowMajor_val_two]
        show r.val * 4096 + c.val = (r.val * 4096 + c.val) / 32 * 32 + (r.val * 4096 + c.val) % 32; omega)]
  rw [mulf_apply]
  rw [mags_apply, id_eq, signs_apply]
  rw [broadcastInDim_apply _ _ _ (ix2 (⟨(r.val * 4096 + c.val) / 32, by omega⟩ : Fin 524288) (⟨(r.val * 4096 + c.val) % 32, by omega⟩ : Fin 32))
    (ix2 (⟨(r.val * 4096 + c.val) / 32, by omega⟩ : Fin 524288) (0 : Fin 1))
    (fun a => match a with | ⟨0, _⟩ => rfl | ⟨1, _⟩ => rfl)]
  rw [broadcastInDim_apply _ _ _ (ix2 (⟨(r.val * 4096 + c.val) / 32, by omega⟩ : Fin 524288) (0 : Fin 1))
    (ix1 (⟨(r.val * 4096 + c.val) / 32, by omega⟩ : Fin 524288))
    (fun a => match a with | ⟨0, _⟩ => rfl)]
  rw [codes_rc]
  have es : (ix1 (⟨(r.val * 4096 + c.val) / 32, by omega⟩ : Fin 524288) : S524288.Idx)
      = Cert.Mx.sIdx r (c.val / 32) (by omega) :=
    congrArg ix1 (Fin.ext (show (r.val * 4096 + c.val) / 32 = r.val * 128 + c.val / 32 by omega))
  rw [es]
  show _ = Cert.Mx.Wrc q s r c
  unfold Cert.Mx.Wrc
  by_cases h2 : c.val % 2 = 0
  · simp only [if_pos h2]; rfl
  · simp only [if_neg h2]; rfl

end Cert.ReferenceIdeal.RefValue

end
-- ==== Proof.RefOut.lean ====
/-
  The reference's output from a weight, entry by entry: the host's product contracts the last axis of `x` with the
  second axis of the weight, so entry (b, s, o) is the sum over `i` of x(b, s, i) * w(o, i); the bias is broadcast
  along the last axis.
-/
import proofs.«407928_j46591805227029_3_alg».proof.Proof.Gen.ReferenceIdeal
import proofs.«407928_j46591805227029_3_alg».proof.Proof.RefTerm
import proofs.«407928_j46591805227029_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen
open Idealize.ShloMosaic Idealize.ShloMosaic.ValueIdx

/-! ## The product's operand indices, axis by axis

  The left operand keeps its first two axes (the result's first two) and contracts its third; the right operand keeps
  its first axis (the result's third) and contracts its second. -/

/-- The left operand's first coordinate is the result's first. -/
private theorem lhs_out_0 (i : S4x2048x4096.Idx) (q : dot_S4x2048x4096_S4096x4096_S4x2048x4096_2_1_01_0_n_n.contr.Idx) :
    (dot_S4x2048x4096_S4096x4096_S4x2048x4096_2_1_01_0_n_n.lhsIdx i q 0).val = (i 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

/-- The left operand's second coordinate is the result's second. -/
private theorem lhs_out_1 (i : S4x2048x4096.Idx) (q : dot_S4x2048x4096_S4096x4096_S4x2048x4096_2_1_01_0_n_n.contr.Idx) :
    (dot_S4x2048x4096_S4096x4096_S4x2048x4096_2_1_01_0_n_n.lhsIdx i q 1).val = (i 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

/-- The left operand's third coordinate is the contraction position. -/
private theorem lhs_out_2 (i : S4x2048x4096.Idx) (q : dot_S4x2048x4096_S4096x4096_S4x2048x4096_2_1_01_0_n_n.contr.Idx) :
    (dot_S4x2048x4096_S4096x4096_S4x2048x4096_2_1_01_0_n_n.lhsIdx i q 2).val = (q ⟨0, by decide⟩).val :=
  dot_S4x2048x4096_S4096x4096_S4x2048x4096_2_1_01_0_n_n.lhsIdx_val_of_single rfl i q

/-- The right operand's first coordinate is the result's third. -/
private theorem rhs_out_0 (i : S4x2048x4096.Idx) (q : dot_S4x2048x4096_S4096x4096_S4x2048x4096_2_1_01_0_n_n.contr.Idx) :
    (dot_S4x2048x4096_S4096x4096_S4x2048x4096_2_1_01_0_n_n.rhsIdx i q 0).val = (i 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

/-- The right operand's second coordinate is the contraction position. -/
private theorem rhs_out_1 (i : S4x2048x4096.Idx) (q : dot_S4x2048x4096_S4096x4096_S4x2048x4096_2_1_01_0_n_n.contr.Idx) :
    (dot_S4x2048x4096_S4096x4096_S4x2048x4096_2_1_01_0_n_n.rhsIdx i q 1).val = (q ⟨0, by decide⟩).val :=
  dot_S4x2048x4096_S4096x4096_S4x2048x4096_2_1_01_0_n_n.rhsIdx_val_of_single rfl i q

/-! ## The product and the bias at an entry -/

/-- The host's product at entry (b, s, o): the inner product of row (b, s) of `x` with row `o` of the weight. -/
private theorem dot_apply (x : FVec Ideal S4x2048x4096 .f32) (w : FVec Ideal S4096x4096 .f32)
    (bb : Fin 4) (ss : Fin 2048) (o : Fin 4096) :
    (Host.dotGeneral (F := Ideal) dot_S4x2048x4096_S4096x4096_S4x2048x4096_2_1_01_0_n_n none x w : S4x2048x4096.Idx → EReal) (ix3 bb ss o)
      = ∑ i : Fin 4096, x (ix3 bb ss i) * w (ix2 o i) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 bb ss o) ((contrEquiv1 dot_S4x2048x4096_S4096x4096_S4x2048x4096_2_1_01_0_n_n 4096 rfl rfl).symm k) = ix3 bb ss k :=
    funext fun a => Fin.ext (by
      match a with
      | ⟨0, _⟩ => exact lhs_out_0 _ _
      | ⟨1, _⟩ => exact lhs_out_1 _ _
      | ⟨2, _⟩ => exact (lhs_out_2 _ _).trans hk)
  have er : dot_S4x2048x4096_S4096x4096_S4x2048x4096_2_1_01_0_n_n.rhsIdx (ix3 bb ss o) ((contrEquiv1 dot_S4x2048x4096_S4096x4096_S4x2048x4096_2_1_01_0_n_n 4096 rfl rfl).symm k) = ix2 o k :=
    funext fun a => Fin.ext (by
      match a with
      | ⟨0, _⟩ => exact rhs_out_0 _ _
      | ⟨1, _⟩ => exact (rhs_out_1 _ _).trans hk)
  rw [el, er]

/-- The bias, broadcast along the last axis, at entry (b, s, o) is `b o`. -/
private theorem bias_apply (b : FVec Ideal S4096 .f32) (bb : Fin 4) (ss : Fin 2048) (o : Fin 4096) :
    (broadcastInDim S4x2048x4096 ![0, 1, 2] bcast_S1x1x4096_S4x2048x4096_0_1_2
      (broadcastInDim S1x1x4096 ![2] bcast_S4096_S1x1x4096_2 b) : S4x2048x4096.Idx → EReal) (ix3 bb ss o) = b (ix1 o) := by
  rw [broadcastInDim_apply _ _ _ (ix3 bb ss o) (ix3 (0 : Fin 1) (0 : Fin 1) o) (by
      intro a
      match a with
      | ⟨0, _⟩ => rfl
      | ⟨1, _⟩ => rfl
      | ⟨2, _⟩ => rfl),
    broadcastInDim_apply _ _ _ (ix3 (0 : Fin 1) (0 : Fin 1) o) (ix1 o) (by
      intro a
      match a with
      | ⟨0, _⟩ => rfl)]

/-- The reference's output from a weight IS the reference-ordered output. -/
theorem refOut_eq (x : FVec Ideal S4x2048x4096 .f32) (w : FVec Ideal S4096x4096 .f32) (b : FVec Ideal S4096 .f32) :
    (refOut (F := Ideal) x w b : S4x2048x4096.Idx → EReal) = Cert.Mx.Out x w b := by
  funext j
  obtain ⟨bb, ss, o, rfl⟩ : ∃ (bb : Fin 4) (ss : Fin 2048) (o : Fin 4096), j = ix3 bb ss o :=
    ⟨j 0, j 1, j 2, eq_ix3 j⟩
  unfold refOut
  show (Host.dotGeneral (F := Ideal) dot_S4x2048x4096_S4096x4096_S4x2048x4096_2_1_01_0_n_n none x w : S4x2048x4096.Idx → EReal) (ix3 bb ss o)
      + (broadcastInDim S4x2048x4096 ![0, 1, 2] bcast_S1x1x4096_S4x2048x4096_0_1_2
          (broadcastInDim S1x1x4096 ![2] bcast_S4096_S1x1x4096_2 b) : S4x2048x4096.Idx → EReal) (ix3 bb ss o) = _
  rw [dot_apply, bias_apply]
  rfl

end Cert.ReferenceIdeal.RefValue

end
-- ==== Proof.lean ====
/-
  The claim: a 4-bit block-scaled linear layer as two kernels — a dequantization of the packed weight, then a tiled
  matrix product that starts each output block at the bias — against its jnp reference.

  Over the extended reals both programs compute, at (b, s, o), the inner product of row (b, s) of `x` with row `o`
  of the dequantized weight, plus `bias o` (Spec.lean). The kernel's dequantization multiplies each code's value by
  its group's scale, the scale brought to its column by a 0/1 matrix product that is exact at the extended reals
  (DequantBody, DequantArr); its matrix product adds eight 512-column partial sums to the bias in order (MatmulBody,
  MatmulArr); the reshapes around the two regions only re-lay rows (Glue). The reference unpacks the same codes,
  reads the same magnitudes from a table, scales by the same groups (RefW), and adds the bias after one 4096-column
  sum (RefOut). The two orders of addition agree because addition of extended reals is commutative and associative
  (SpecLaws); no finiteness is used, so the precondition is never opened.

  The three frames: the two kernels' are the generated frames; the reference's is its run with the result dropped.
  The ideal pass rewrote nothing, so `preserves` is trivial.
-/
import proofs.«407928_j46591805227029_3_alg».proof.Defs
import proofs.«407928_j46591805227029_3_alg».proof.Proof.Gen.Kernel
import proofs.«407928_j46591805227029_3_alg».proof.Proof.Gen.Kernel.Skeleton
import proofs.«407928_j46591805227029_3_alg».proof.Proof.Gen.Kernel.Launch
import proofs.«407928_j46591805227029_3_alg».proof.Proof.Gen.Kernel.Points
import proofs.«407928_j46591805227029_3_alg».proof.Proof.Gen.Kernel.Frame
import proofs.«407928_j46591805227029_3_alg».proof.Proof.Gen.KernelIdeal
import proofs.«407928_j46591805227029_3_alg».proof.Proof.Gen.KernelIdeal.Skeleton
import proofs.«407928_j46591805227029_3_alg».proof.Proof.Gen.KernelIdeal.Launch
import proofs.«407928_j46591805227029_3_alg».proof.Proof.Gen.KernelIdeal.Points
import proofs.«407928_j46591805227029_3_alg».proof.Proof.Gen.KernelIdeal.Frame
import proofs.«407928_j46591805227029_3_alg».proof.Proof.Gen.ReferenceIdeal
import proofs.«407928_j46591805227029_3_alg».proof.Proof.Gen.Pre_finite_inputs
import proofs.«407928_j46591805227029_3_alg».proof.Proof.KernelValue
import proofs.«407928_j46591805227029_3_alg».proof.Proof.RefRun
import proofs.«407928_j46591805227029_3_alg».proof.Proof.RefW
import proofs.«407928_j46591805227029_3_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- Both runs end with the result at the reference-ordered output of the arguments, which agree. -/
theorem algebraic : Cert.algebraic_KernelIdeal_ReferenceIdeal := by
  intro m ρ m' ρ' _ hagree
  refine ⟨_, Cert.KernelIdeal.ValueRun.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  unfold Cert.ReferenceIdeal.RefValue.refTerm
  rw [Cert.ReferenceIdeal.RefValue.refOut_eq, Cert.ReferenceIdeal.RefValue.refW_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
